-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S1024x1024 .f32 .bf16
  ∧ IdealRules.truncf_extf.Statement Cert.KernelIdeal.S512x1024 .f32 .bf16
  ∧ IdealRules.truncf_extf.Statement Cert.KernelIdeal.S1024x1024 .f32 .bf16
  ∧ IdealRules.truncf_extf.Statement Cert.KernelIdeal.S512x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x1024x1024 : Shape := ⟨4, ![16, 3, 1024, 1024]⟩
abbrev S8x512x1x1x1 : Shape := ⟨5, ![8, 512, 1, 1, 1]⟩
abbrev S8x512 : Shape := ⟨2, ![8, 512]⟩
abbrev S_ : Shape := ⟨0, ![]⟩

class Facts : Prop where
  bcast_S_S16x3x1024x1024 : S_.BroadcastsInDim S16x3x1024x1024 (![] : Fin 0 → Fin S16x3x1024x1024.rank)
  reducesTo_S16x3x1024x1024_S_d0_1_2_3 : S16x3x1024x1024.ReducesTo [0, 1, 2, 3] S_
  h_S_ : 0 < S_.numel
  bcast_S_S8x512x1x1x1 : S_.BroadcastsInDim S8x512x1x1x1 (![] : Fin 0 → Fin S8x512x1x1x1.rank)
  reducesTo_S8x512x1x1x1_S_d0_1_2_3_4 : S8x512x1x1x1.ReducesTo [0, 1, 2, 3, 4] S_
  bcast_S_S8x512 : S_.BroadcastsInDim S8x512 (![] : Fin 0 → Fin S8x512.rank)
  reducesTo_S8x512_S_d0_1 : S8x512.ReducesTo [0, 1] S_

variable [Facts]

def fn_part1 {F : FTy → Type} [FloatOps F] (main_arg3 : IVec S8x512 32) (main_arg4 : IVec S8x512 32) (main_v13 : IVec S_ 1) (main_v15 : IVec S8x512 1) (main_c_5 : IVec S_ 32) : IVec S_ 1 :=
  let main_v16 : IVec S8x512 32 := broadcastInDim S8x512 ![] bcast_S_S8x512 main_c_5
  let main_v17 : IVec S8x512 1 := cmpi .slt main_arg3 main_v16
  let main_v18 : IVec S8x512 1 := andi main_v15 main_v17
  let main_c_6 : IVec S_ 1 := constantI S_ 1 1#1
  let main_v19 : IVec S_ 1 := (fun x v => Host.reduce IntOp.andi x v reducesTo_S8x512_S_d0_1 h_S_) main_v18 main_c_6
  let main_v20 : IVec S_ 1 := andi main_v13 main_v19
  let main_c_7 : IVec S_ 32 := constantI S_ 32 0#32
  let main_v21 : IVec S8x512 32 := broadcastInDim S8x512 ![] bcast_S_S8x512 main_c_7
  let main_v22 : IVec S8x512 1 := cmpi .sge main_arg4 main_v21
  let main_c_8 : IVec S_ 32 := constantI S_ 32 1024#32
  let main_v23 : IVec S8x512 32 := broadcastInDim S8x512 ![] bcast_S_S8x512 main_c_8
  let main_v24 : IVec S8x512 1 := cmpi .slt main_arg4 main_v23
  let main_v25 : IVec S8x512 1 := andi main_v22 main_v24
  let main_c_9 : IVec S_ 1 := constantI S_ 1 1#1
  let main_v26 : IVec S_ 1 := (fun x v => Host.reduce IntOp.andi x v reducesTo_S8x512_S_d0_1 h_S_) main_v25 main_c_9
  let main_v27 : IVec S_ 1 := andi main_v20 main_v26
  main_v27

def fn {F : FTy → Type} [FloatOps F] (main_arg0 : FVec F S16x3x1024x1024 .f32) (main_arg1 : FVec F S8x512x1x1x1 .f32) (main_arg2 : FVec F S8x512x1x1x1 .f32) (main_arg3 : IVec S8x512 32) (main_arg4 : IVec S8x512 32) : IVec S_ 1 :=
  let main_v0 : FVec F S16x3x1024x1024 .f32 := Host.absf main_arg0
  let main_cst : FVec F S_ .f32 := constant S_ .f32 0x7F800000#32
  let main_v1 : FVec F S16x3x1024x1024 .f32 := broadcastInDim S16x3x1024x1024 ![] bcast_S_S16x3x1024x1024 main_cst
  let main_v2 : IVec S16x3x1024x1024 1 := cmpf .olt main_v0 main_v1
  let main_c : IVec S_ 1 := constantI S_ 1 1#1
  let main_v3 : IVec S_ 1 := (fun x v => Host.reduce IntOp.andi x v reducesTo_S16x3x1024x1024_S_d0_1_2_3 h_S_) main_v2 main_c
  let main_v4 : FVec F S8x512x1x1x1 .f32 := Host.absf main_arg1
  let main_cst_0 : FVec F S_ .f32 := constant S_ .f32 0x7F800000#32
  let main_v5 : FVec F S8x512x1x1x1 .f32 := broadcastInDim S8x512x1x1x1 ![] bcast_S_S8x512x1x1x1 main_cst_0
  let main_v6 : IVec S8x512x1x1x1 1 := cmpf .olt main_v4 main_v5
  let main_c_1 : IVec S_ 1 := constantI S_ 1 1#1
  let main_v7 : IVec S_ 1 := (fun x v => Host.reduce IntOp.andi x v reducesTo_S8x512x1x1x1_S_d0_1_2_3_4 h_S_) main_v6 main_c_1
  let main_v8 : IVec S_ 1 := andi main_v3 main_v7
  let main_v9 : FVec F S8x512x1x1x1 .f32 := Host.absf main_arg2
  let main_cst_2 : FVec F S_ .f32 := constant S_ .f32 0x7F800000#32
  let main_v10 : FVec F S8x512x1x1x1 .f32 := broadcastInDim S8x512x1x1x1 ![] bcast_S_S8x512x1x1x1 main_cst_2
  let main_v11 : IVec S8x512x1x1x1 1 := cmpf .olt main_v9 main_v10
  let main_c_3 : IVec S_ 1 := constantI S_ 1 1#1
  let main_v12 : IVec S_ 1 := (fun x v => Host.reduce IntOp.andi x v reducesTo_S8x512x1x1x1_S_d0_1_2_3_4 h_S_) main_v11 main_c_3
  let main_v13 : IVec S_ 1 := andi main_v8 main_v12
  let main_c_4 : IVec S_ 32 := constantI S_ 32 0#32
  let main_v14 : IVec S8x512 32 := broadcastInDim S8x512 ![] bcast_S_S8x512 main_c_4
  let main_v15 : IVec S8x512 1 := cmpi .sge main_arg3 main_v14
  let main_c_5 : IVec S_ 32 := constantI S_ 32 1024#32
  fn_part1 (F := F) main_arg3 main_arg4 main_v13 main_v15 main_c_5
-- ==== Kernel.lean ====
abbrev S16x3x1024x1024 : Shape := ⟨4, ![16, 3, 1024, 1024]⟩
abbrev S8x512x1x1x1 : Shape := ⟨5, ![8, 512, 1, 1, 1]⟩
abbrev S8x512 : Shape := ⟨2, ![8, 512]⟩
abbrev S_ : Shape := ⟨0, ![]⟩
abbrev S512 : Shape := ⟨1, ![512]⟩
abbrev S1x512 : Shape := ⟨2, ![1, 512]⟩
abbrev S1024x512 : Shape := ⟨2, ![1024, 512]⟩
abbrev S8x512x1 : Shape := ⟨3, ![8, 512, 1]⟩
abbrev S8x512x2 : Shape := ⟨3, ![8, 512, 2]⟩
abbrev S512x1024 : Shape := ⟨2, ![512, 1024]⟩
abbrev S48x1024x1024 : Shape := ⟨3, ![48, 1024, 1024]⟩
abbrev S48x512x512 : Shape := ⟨3, ![48, 512, 512]⟩
abbrev S2x1024x1024 : Shape := ⟨3, ![2, 1024, 1024]⟩
abbrev S2x512x512 : Shape := ⟨3, ![2, 512, 512]⟩
abbrev S1x1024x1024 : Shape := ⟨3, ![1, 1024, 1024]⟩
abbrev S1024x1024 : Shape := ⟨2, ![1024, 1024]⟩
abbrev S512x512 : Shape := ⟨2, ![512, 512]⟩
abbrev S1x512x512 : Shape := ⟨3, ![1, 512, 512]⟩
abbrev S16x3x512x512 : Shape := ⟨4, ![16, 3, 512, 512]⟩

abbrev nBuf : Space → Nat
  | .hbm => 81
  | .vmem => 8
  | .smem => 0
  | _ => 0

abbrev bufTy : (tb : Table) → Fin (tcTables nBuf tb) → BufTy
  | .hbm, ⟨0, _⟩ => ⟨S16x3x1024x1024, .f32⟩
  | .hbm, ⟨1, _⟩ => ⟨S8x512x1x1x1, .f32⟩
  | .hbm, ⟨2, _⟩ => ⟨S8x512x1x1x1, .f32⟩
  | .hbm, ⟨3, _⟩ => ⟨S8x512, .i32⟩
  | .hbm, ⟨4, _⟩ => ⟨S8x512, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S8x512, .i32⟩
  | .hbm, ⟨9, _⟩ => ⟨S8x512, .i32⟩
  | .hbm, ⟨10, _⟩ => ⟨S_, .i32⟩
  | .hbm, ⟨11, _⟩ => ⟨S8x512, .i32⟩
  | .hbm, ⟨12, _⟩ => ⟨S8x512, .i32⟩
  | .hbm, ⟨13, _⟩ => ⟨S512, .i32⟩
  | .hbm, ⟨14, _⟩ => ⟨S1x512, .i32⟩
  | .hbm, ⟨15, _⟩ => ⟨S8x512, .i32⟩
  | .hbm, ⟨16, _⟩ => ⟨S8x512, .f32⟩
  | .hbm, ⟨17, _⟩ => ⟨S_, .f32⟩
  | .hbm, ⟨18, _⟩ => ⟨S1024x512, .f32⟩
  | .hbm, ⟨19, _⟩ => ⟨S_, .i32⟩
  | .hbm, ⟨20, _⟩ => ⟨S8x512, .i32⟩
  | .hbm, ⟨21, _⟩ => ⟨S8x512, .i1⟩
  | .hbm, ⟨22, _⟩ => ⟨S_, .i32⟩
  | .hbm, ⟨23, _⟩ => ⟨S8x512, .i32⟩
  | .hbm, ⟨24, _⟩ => ⟨S8x512, .i32⟩
  | .hbm, ⟨25, _⟩ => ⟨S8x512, .i32⟩
  | .hbm, ⟨26, _⟩ => ⟨S_, .i32⟩
  | .hbm, ⟨27, _⟩ => ⟨S8x512, .i32⟩
  | .hbm, ⟨28, _⟩ => ⟨S8x512, .i1⟩
  | .hbm, ⟨29, _⟩ => ⟨S_, .i32⟩
  | .hbm, ⟨30, _⟩ => ⟨S8x512, .i32⟩
  | .hbm, ⟨31, _⟩ => ⟨S8x512, .i32⟩
  | .hbm, ⟨32, _⟩ => ⟨S8x512, .i32⟩
  | .hbm, ⟨33, _⟩ => ⟨S8x512x1, .i32⟩
  | .hbm, ⟨34, _⟩ => ⟨S8x512x1, .i32⟩
  | .hbm, ⟨35, _⟩ => ⟨S8x512x2, .i32⟩
  | .hbm, ⟨36, _⟩ => ⟨S1024x512, .f32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S8x512, .i32⟩
  | .hbm, ⟨41, _⟩ => ⟨S8x512, .i32⟩
  | .hbm, ⟨42, _⟩ => ⟨S_, .i32⟩
  | .hbm, ⟨43, _⟩ => ⟨S8x512, .i32⟩
  | .hbm, ⟨44, _⟩ => ⟨S8x512, .i32⟩
  | .hbm, ⟨45, _⟩ => ⟨S512, .i32⟩
  | .hbm, ⟨46, _⟩ => ⟨S1x512, .i32⟩
  | .hbm, ⟨47, _⟩ => ⟨S8x512, .i32⟩
  | .hbm, ⟨48, _⟩ => ⟨S8x512, .f32⟩
  | .hbm, ⟨49, _⟩ => ⟨S_, .f32⟩
  | .hbm, ⟨50, _⟩ => ⟨S1024x512, .f32⟩
  | .hbm, ⟨51, _⟩ => ⟨S_, .i32⟩
  | .hbm, ⟨52, _⟩ => ⟨S8x512, .i32⟩
  | .hbm, ⟨53, _⟩ => ⟨S8x512, .i1⟩
  | .hbm, ⟨54, _⟩ => ⟨S_, .i32⟩
  | .hbm, ⟨55, _⟩ => ⟨S8x512, .i32⟩
  | .hbm, ⟨56, _⟩ => ⟨S8x512, .i32⟩
  | .hbm, ⟨57, _⟩ => ⟨S8x512, .i32⟩
  | .hbm, ⟨58, _⟩ => ⟨S_, .i32⟩
  | .hbm, ⟨59, _⟩ => ⟨S8x512, .i32⟩
  | .hbm, ⟨60, _⟩ => ⟨S8x512, .i1⟩
  | .hbm, ⟨61, _⟩ => ⟨S_, .i32⟩
  | .hbm, ⟨62, _⟩ => ⟨S8x512, .i32⟩
  | .hbm, ⟨63, _⟩ => ⟨S8x512, .i32⟩
  | .hbm, ⟨64, _⟩ => ⟨S8x512, .i32⟩
  | .hbm, ⟨65, _⟩ => ⟨S8x512x1, .i32⟩
  | .hbm, ⟨66, _⟩ => ⟨S8x512x1, .i32⟩
  | .hbm, ⟨67, _⟩ => ⟨S8x512x2, .i32⟩
  | .hbm, ⟨68, _⟩ => ⟨S1024x512, .f32⟩
  | .hbm, ⟨69, _⟩ => ⟨S512x1024, .f32⟩
  | .hbm, ⟨70, _⟩ => ⟨S512x1024, .bf16⟩
  | .hbm, ⟨71, _⟩ => ⟨S512x1024, .f32⟩
  | .hbm, ⟨72, _⟩ => ⟨S512x1024, .f32⟩
  | .hbm, ⟨73, _⟩ => ⟨S512x1024, .bf16⟩
  | .hbm, ⟨74, _⟩ => ⟨S1024x512, .bf16⟩
  | .hbm, ⟨75, _⟩ => ⟨S1024x512, .f32⟩
  | .hbm, ⟨76, _⟩ => ⟨S1024x512, .f32⟩
  | .hbm, ⟨77, _⟩ => ⟨S1024x512, .bf16⟩
  | .hbm, ⟨78, _⟩ => ⟨S48x1024x1024, .f32⟩
  | .hbm, ⟨79, _⟩ => ⟨S48x512x512, .f32⟩
  | .hbm, ⟨80, _⟩ => ⟨S16x3x512x512, .f32⟩
  | .local _ .vmem, ⟨0, _⟩ => ⟨S2x1024x1024, .f32⟩
  | .local _ .vmem, ⟨1, _⟩ => ⟨S2x1024x1024, .f32⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | .local _ .vmem, ⟨6, _⟩ => ⟨S2x512x512, .f32⟩
  | .local _ .vmem, ⟨7, _⟩ => ⟨S2x512x512, .f32⟩
  | _, _ => ⟨S16x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_c_1 : Ref sig .tc := ⟨.hbm, 19, rfl⟩
abbrev main_v6 : Ref sig .tc := ⟨.hbm, 20, rfl⟩
abbrev main_v7 : Ref sig .tc := ⟨.hbm, 21, rfl⟩
abbrev main_c_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_3 : Ref sig .tc := ⟨.hbm, 26, rfl⟩
abbrev main_v11 : Ref sig .tc := ⟨.hbm, 27, rfl⟩
abbrev main_v12 : Ref sig .tc := ⟨.hbm, 28, rfl⟩
abbrev main_c_4 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_5 : Ref sig .tc := ⟨.hbm, 37, rfl⟩
abbrev main_c_6 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_7 : Ref sig .tc := ⟨.hbm, 49, rfl⟩
abbrev main_v25 : Ref sig .tc := ⟨.hbm, 50, rfl⟩
abbrev main_c_8 : Ref sig .tc := ⟨.hbm, 51, rfl⟩
abbrev main_v26 : Ref sig .tc := ⟨.hbm, 52, rfl⟩
abbrev main_v27 : Ref sig .tc := ⟨.hbm, 53, rfl⟩
abbrev main_c_9 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_10 : Ref sig .tc := ⟨.hbm, 58, rfl⟩
abbrev main_v31 : Ref sig .tc := ⟨.hbm, 59, rfl⟩
abbrev main_v32 : Ref sig .tc := ⟨.hbm, 60, rfl⟩
abbrev main_c_11 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![24], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S8x512 : S_.BroadcastsInDim S8x512 (![] : Fin 0 → Fin S8x512.rank)
  bcast_S512_S1x512_1 : S512.BroadcastsInDim S1x512 (![1] : Fin 1 → Fin S1x512.rank)
  bcast_S1x512_S8x512_0_1 : S1x512.BroadcastsInDim S8x512 (![0, 1] : Fin 2 → Fin S8x512.rank)
  shapeCasts_S8x512x1x1x1_S8x512 : S8x512x1x1x1.ShapeCasts S8x512
  bcast_S_S1024x512 : S_.BroadcastsInDim S1024x512 (![] : Fin 0 → Fin S1024x512.rank)
  bcast_S8x512_S8x512x1_0_1 : S8x512.BroadcastsInDim S8x512x1 (![0, 1] : Fin 2 → Fin S8x512x1.rank)
  concatenates_S8x512x1_S8x512x1_S8x512x2_d2 : Shape.Concatenates [S8x512x1, S8x512x1] S8x512x2 2
  transposes_S1024x512_S512x1024_1_0 : S1024x512.Transposes [1, 0] S512x1024
  bitsLt_bf16_f32 : FTy.bits .bf16 < FTy.bits .f32
  shapeCasts_S16x3x1024x1024_S48x1024x1024 : S16x3x1024x1024.ShapeCasts S48x1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2x1024x1024_S1x1024x1024_0_0_0 : ∀ a, (![0, 0, 0] : Fin 3 → Nat) a + S1x1024x1024.size a ≤ S2x1024x1024.size a
  h_S1x1024x1024 : 0 < S1x1024x1024.numel
  shapeCasts_S1x1024x1024_S1024x1024 : S1x1024x1024.ShapeCasts S1024x1024
  inb_S2x512x512_S1x512x512_0_0_0 : ∀ a, (![0, 0, 0] : Fin 3 → Nat) a + S1x512x512.size a ≤ S2x512x512.size a
  h_S1x512x512 : 0 < S1x512x512.numel
  shapeCasts_S1x512x512_S512x512 : S1x512x512.ShapeCasts S512x512
  shapeCasts_S512x512_S1x512x512 : S512x512.ShapeCasts S1x512x512
  inb_S2x1024x1024_S1x1024x1024_1_0_0 : ∀ a, (![1, 0, 0] : Fin 3 → Nat) a + S1x1024x1024.size a ≤ S2x1024x1024.size a
  inb_S2x512x512_S1x512x512_1_0_0 : ∀ a, (![1, 0, 0] : Fin 3 → Nat) a + S1x512x512.size a ≤ S2x512x512.size a
  shapeCasts_S48x512x512_S16x3x512x512 : S48x512x512.ShapeCasts S16x3x512x512
  scatter_S1024x512_S8x512x2_S8x512_n_01_01_2_wf : ScatterDims.WF S1024x512 S8x512x2 S8x512 [] [0, 1] [0, 1] 2
  dot_S512x1024_S1024x1024_S512x1024_1_0_0_1_n_n_wf : DotDims.WF S512x1024 S1024x1024 S512x1024 [1] [0] [0] [1] [] []
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x1024.size a ≤ S48x1024x1024.size a
  hwx0_0 : ∀ i : grid0.Coords, EltTy.bits .f32 = 32 ∨ (Rect.block (s := S48x1024x1024) S2x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .bf16 = 32 ∨ (Rect.block (s := S1024x512) S1024x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x512.size a
  hwx0_4 : ∀ i : grid0.Coords, EltTy.bits .bf16 = 32 ∨ (Rect.block (s := S1024x512) S1024x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x512x512.size a ≤ S48x512x512.size a
  hwx0_5 : ∀ i : grid0.Coords, EltTy.bits .f32 = 32 ∨ (Rect.block (s := S48x512x512) S2x512x512.size (cc0_transform_5 i) (hinb0_5 i)).WholeWords (EltTy.packing .f32)

variable [Facts₀]

def scatter_S1024x512_S8x512x2_S8x512_n_01_01_2 : ScatterDims S1024x512 S8x512x2 S8x512 where
  updateWindowDims := []
  insertedWindowDims := [0, 1]
  scatterDimsToOperandDims := [0, 1]
  indexVectorDim := 2
  wf := scatter_S1024x512_S8x512x2_S8x512_n_01_01_2_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_v49) S2x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v44) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v48) S1024x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v50) S2x512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x3x1024x1024 : Shape := ⟨4, ![16, 3, 1024, 1024]⟩
abbrev S8x512x1x1x1 : Shape := ⟨5, ![8, 512, 1, 1, 1]⟩
abbrev S8x512 : Shape := ⟨2, ![8, 512]⟩
abbrev S1024x3x16x1024 : Shape := ⟨4, ![1024, 3, 16, 1024]⟩
abbrev S_ : Shape := ⟨0, ![]⟩
abbrev S8x512x1 : Shape := ⟨3, ![8, 512, 1]⟩
abbrev S8x512x3x16x1024 : Shape := ⟨5, ![8, 512, 3, 16, 1024]⟩
abbrev S512x3x16x1024 : Shape := ⟨4, ![512, 3, 16, 1024]⟩
abbrev S16x3x512x1024 : Shape := ⟨4, ![16, 3, 512, 1024]⟩
abbrev S1024x3x512x16 : Shape := ⟨4, ![1024, 3, 512, 16]⟩
abbrev S8x512x3x512x16 : Shape := ⟨5, ![8, 512, 3, 512, 16]⟩
abbrev S512x3x512x16 : Shape := ⟨4, ![512, 3, 512, 16]⟩
abbrev S16x3x512x512 : Shape := ⟨4, ![16, 3, 512, 512]⟩

abbrev nBuf : Space → Nat
  | .hbm => 35
  | .vmem => 0
  | .smem => 0
  | _ => 0

abbrev bufTy : (tb : Table) → Fin (tcTables nBuf tb) → BufTy
  | .hbm, ⟨0, _⟩ => ⟨S16x3x1024x1024, .f32⟩
  | .hbm, ⟨1, _⟩ => ⟨S8x512x1x1x1, .f32⟩
  | .hbm, ⟨2, _⟩ => ⟨S8x512x1x1x1, .f32⟩
  | .hbm, ⟨3, _⟩ => ⟨S8x512, .i32⟩
  | .hbm, ⟨4, _⟩ => ⟨S8x512, .i32⟩
  | .hbm, ⟨5, _⟩ => ⟨S1024x3x16x1024, .f32⟩
  | .hbm, ⟨6, _⟩ => ⟨S_, .i32⟩
  | .hbm, ⟨7, _⟩ => ⟨S8x512, .i32⟩
  | .hbm, ⟨8, _⟩ => ⟨S8x512, .i1⟩
  | .hbm, ⟨9, _⟩ => ⟨S_, .i32⟩
  | .hbm, ⟨10, _⟩ => ⟨S8x512, .i32⟩
  | .hbm, ⟨11, _⟩ => ⟨S8x512, .i32⟩
  | .hbm, ⟨12, _⟩ => ⟨S8x512, .i32⟩
  | .hbm, ⟨13, _⟩ => ⟨S8x512x1, .i32⟩
  | .hbm, ⟨14, _⟩ => ⟨S8x512x3x16x1024, .f32⟩
  | .hbm, ⟨15, _⟩ => ⟨S8x512x3x16x1024, .f32⟩
  | .hbm, ⟨16, _⟩ => ⟨S8x512x3x16x1024, .f32⟩
  | .hbm, ⟨17, _⟩ => ⟨S_, .f32⟩
  | .hbm, ⟨18, _⟩ => ⟨S512x3x16x1024, .f32⟩
  | .hbm, ⟨19, _⟩ => ⟨S16x3x512x1024, .f32⟩
  | .hbm, ⟨20, _⟩ => ⟨S1024x3x512x16, .f32⟩
  | .hbm, ⟨21, _⟩ => ⟨S_, .i32⟩
  | .hbm, ⟨22, _⟩ => ⟨S8x512, .i32⟩
  | .hbm, ⟨23, _⟩ => ⟨S8x512, .i1⟩
  | .hbm, ⟨24, _⟩ => ⟨S_, .i32⟩
  | .hbm, ⟨25, _⟩ => ⟨S8x512, .i32⟩
  | .hbm, ⟨26, _⟩ => ⟨S8x512, .i32⟩
  | .hbm, ⟨27, _⟩ => ⟨S8x512, .i32⟩
  | .hbm, ⟨28, _⟩ => ⟨S8x512x1, .i32⟩
  | .hbm, ⟨29, _⟩ => ⟨S8x512x3x512x16, .f32⟩
  | .hbm, ⟨30, _⟩ => ⟨S8x512x3x512x16, .f32⟩
  | .hbm, ⟨31, _⟩ => ⟨S8x512x3x512x16, .f32⟩
  | .hbm, ⟨32, _⟩ => ⟨S_, .f32⟩
  | .hbm, ⟨33, _⟩ => ⟨S512x3x512x16, .f32⟩
  | .hbm, ⟨34, _⟩ => ⟨S16x3x512x512, .f32⟩
  | _, _ => ⟨S16x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  transposes_S16x3x1024x1024_S1024x3x16x1024_2_1_0_3 : S16x3x1024x1024.Transposes [2, 1, 0, 3] S1024x3x16x1024
  bcast_S_S8x512 : S_.BroadcastsInDim S8x512 (![] : Fin 0 → Fin S8x512.rank)
  bcast_S8x512_S8x512x1_0_1 : S8x512.BroadcastsInDim S8x512x1 (![0, 1] : Fin 2 → Fin S8x512x1.rank)
  bcast_S8x512x1x1x1_S8x512x3x16x1024_0_1_2_3_4 : S8x512x1x1x1.BroadcastsInDim S8x512x3x16x1024 (![0, 1, 2, 3, 4] : Fin 5 → Fin S8x512x3x16x1024.rank)
  reducesTo_S8x512x3x16x1024_S512x3x16x1024_d0 : S8x512x3x16x1024.ReducesTo [0] S512x3x16x1024
  h_S_ : 0 < S_.numel
  transposes_S512x3x16x1024_S16x3x512x1024_2_1_0_3 : S512x3x16x1024.Transposes [2, 1, 0, 3] S16x3x512x1024
  transposes_S16x3x512x1024_S1024x3x512x16_3_1_2_0 : S16x3x512x1024.Transposes [3, 1, 2, 0] S1024x3x512x16
  bcast_S8x512x1x1x1_S8x512x3x512x16_0_1_2_3_4 : S8x512x1x1x1.BroadcastsInDim S8x512x3x512x16 (![0, 1, 2, 3, 4] : Fin 5 → Fin S8x512x3x512x16.rank)
  reducesTo_S8x512x3x512x16_S512x3x512x16_d0 : S8x512x3x512x16.ReducesTo [0] S512x3x512x16
  transposes_S512x3x512x16_S16x3x512x512_3_1_2_0 : S512x3x512x16.Transposes [3, 1, 2, 0] S16x3x512x512
  gather_S1024x3x16x1024_S8x512x1_S8x512x3x16x1024_234_0_n_n_0_2_13161024_wf : GatherDims.WF S1024x3x16x1024 S8x512x1 S8x512x3x16x1024 [2, 3, 4] [0] [] [0] [] 2 ![1, 3, 16, 1024]
  gather_S1024x3x512x16_S8x512x1_S8x512x3x512x16_234_0_n_n_0_2_1351216_wf : GatherDims.WF S1024x3x512x16 S8x512x1 S8x512x3x512x16 [2, 3, 4] [0] [] [0] [] 2 ![1, 3, 512, 16]

variable [Facts₀]

def gather_S1024x3x16x1024_S8x512x1_S8x512x3x16x1024_234_0_n_n_0_2_13161024 : GatherDims S1024x3x16x1024 S8x512x1 S8x512x3x16x1024 where
  offsetDims := [2, 3, 4]
  collapsedSliceDims := [0]
  operandBatchingDims := []
  startIndicesBatchingDims := []
  startIndexMap := [0]
  indexVectorDim := 2
  sliceSizes := ![1, 3, 16, 1024]
  wf := gather_S1024x3x16x1024_S8x512x1_S8x512x3x16x1024_234_0_n_n_0_2_13161024_wf
def gather_S1024x3x512x16_S8x512x1_S8x512x3x512x16_234_0_n_n_0_2_1351216 : GatherDims S1024x3x512x16 S8x512x1 S8x512x3x512x16 where
  offsetDims := [2, 3, 4]
  collapsedSliceDims := [0]
  operandBatchingDims := []
  startIndicesBatchingDims := []
  startIndexMap := [0]
  indexVectorDim := 2
  sliceSizes := ![1, 3, 512, 16]
  wf := gather_S1024x3x512x16_S8x512x1_S8x512x3x512x16_234_0_n_n_0_2_1351216_wf

class Facts : Prop extends Facts₀ where

variable [Facts]
-- ==== Proof.Spec.lean ====
/-
  The mathematics of the resize, stated once, over the extended reals.

  An image plane `x` (1024 × 1024) is resized to 512 × 512 by two separable eight-tap filters: output row `o1`
  takes, for each tap `q`, the input row `fov0[q, o1]` with weight `w0[q, o1]`; output column `o2` takes, for each
  tap `p`, the column `fov1[p, o2]` with weight `w1[p, o2]`. One program gathers the rows and columns the index
  tables name and sums the eight weighted taps on each axis (`resized`). The other first spreads each weight table
  into a dense 1024 × 512 matrix (`dense`: entry `(i, o)` is the sum of the weights of the taps of output `o` that
  name input `i`) and then multiplies: `(Wr · x) · Wc`, each product computed as three partial products of a
  "high" and a "low" part of each operand, the low part being the operand minus itself rounded to a shorter format
  (`stage1`, `stage2`, `plane`). Over the extended reals a change of format is the identity, so every low part of a
  finite operand is zero and `plane` is the plain double product; with the dense matrices that is `resized`.
-/
import Idealize.ShloMosaic.PureOps.Ideal
import Idealize.ShloMosaic.Lib.ValueIdx

noncomputable section

open scoped BigOperators

namespace Cert.Resize

open Idealize.ShloMosaic Idealize.ShloMosaic.ValueIdx

/-- The image batch, the two weight tables, an index table, the result. -/
abbrev SIn : Shape := ⟨4, ![16, 3, 1024, 1024]⟩
abbrev SW : Shape := ⟨5, ![8, 512, 1, 1, 1]⟩
abbrev SFov : Shape := ⟨2, ![8, 512]⟩
abbrev SOut : Shape := ⟨4, ![16, 3, 512, 512]⟩

/-- The input row (or column) that tap `p` of output `o` names: the index word's value (taken below 1024, which
    changes nothing for a word in range). -/
def row (fov : IVec SFov 32) (p : Fin 8) (o : Fin 512) : Fin 1024 :=
  ⟨(fov (ix2 p o)).toNat % 1024, Nat.mod_lt _ (by decide)⟩

/-- THE RESIZED IMAGE at batch `b`, channel `ch`, row `o1`, column `o2`: the eight column taps of the eight row taps. -/
def resized (x : SIn.Idx → EReal) (w0 w1 : SW.Idx → EReal) (fov0 fov1 : IVec SFov 32)
    (b : Fin 16) (ch : Fin 3) (o1 o2 : Fin 512) : EReal :=
  ∑ p : Fin 8, (∑ q : Fin 8, x (ix4 b ch (row fov0 q o1) (row fov1 p o2)) * w0 (ix5 q o1 0 0 0)) * w1 (ix5 p o2 0 0 0)

/-- The same as one array. -/
def G (x : SIn.Idx → EReal) (w0 w1 : SW.Idx → EReal) (fov0 fov1 : IVec SFov 32) : SOut.Idx → EReal :=
  fun i => resized x w0 w1 fov0 fov1 (i 0) (i 1) (i 2) (i 3)

/-- A weight table spread into a dense matrix: entry `(i, o)` sums the weights of the taps of output `o` that name
    input `i` (several taps may name one input: mirrored borders). -/
def dense (fov : IVec SFov 32) (w : SW.Idx → EReal) (i : Fin 1024) (o : Fin 512) : EReal :=
  ∑ p : Fin 8, if row fov p o = i then w (ix5 p o 0 0 0) else 0

/-- The first product, in three partial products: high·high + high·low + low·high, the low part of the image being the
    image minus itself in the shorter format. -/
def stage1 (A Alo : Fin 512 → Fin 1024 → EReal) (X : Fin 1024 → Fin 1024 → EReal) (o : Fin 512) (j : Fin 1024) : EReal :=
  (∑ i : Fin 1024, A o i * X i j + ∑ i : Fin 1024, A o i * (X i j - X i j)) + ∑ i : Fin 1024, Alo o i * X i j

/-- The second product, likewise, of the first product's result `Y`. -/
def stage2 (Y : Fin 512 → Fin 1024 → EReal) (B Blo : Fin 1024 → Fin 512 → EReal) (o1 o2 : Fin 512) : EReal :=
  (∑ j : Fin 1024, Y o1 j * B j o2 + ∑ j : Fin 1024, Y o1 j * Blo j o2) + ∑ j : Fin 1024, (Y o1 j - Y o1 j) * B j o2

/-- One plane through both products. -/
def plane (A Alo : Fin 512 → Fin 1024 → EReal) (B Blo : Fin 1024 → Fin 512 → EReal) (X : Fin 1024 → Fin 1024 → EReal)
    (o1 o2 : Fin 512) : EReal :=
  stage2 (stage1 A Alo X) B Blo o1 o2

/-- What the precondition says of the inputs: the floats are real numbers, the index words name rows and columns of the
    image. -/
structure Adm (x : SIn.Idx → EReal) (w0 w1 : SW.Idx → EReal) (fov0 fov1 : IVec SFov 32) : Prop where
  x_real : ∃ r : SIn.Idx → ℝ, x = fun i => ((r i : ℝ) : EReal)
  w0_real : ∃ r : SW.Idx → ℝ, w0 = fun i => ((r i : ℝ) : EReal)
  w1_real : ∃ r : SW.Idx → ℝ, w1 = fun i => ((r i : ℝ) : EReal)
  fov0_lt : ∀ i, (fov0 i).toNat < 1024
  fov1_lt : ∀ i, (fov1 i).toNat < 1024

end Cert.Resize

end
-- ==== Proof.Pre.lean ====
/-
  What the precondition says, decoded: every float input is a real number, and every index word of the two index
  tables is a row (column) number of the image, `0 ≤ fov < 1024`.
-/
import proofs.«414116_j1726576856659_2_alg».proof.Pre_finite_inputs
import proofs.«414116_j1726576856659_2_alg».proof.Proof.Spec
import Idealize.ShloMosaic.Lib.ReduceAll
import Idealize.ShloMosaic.Lib.StableHlo.Predicate

noncomputable section

open scoped BigOperators

namespace Cert.Resize

open Idealize.ShloMosaic Idealize.ShloMosaic.ValueIdx

/-- The rank-0 shape has one index. -/
private instance : Subsingleton Cert.Pre_finite_inputs.S_.Idx := ⟨fun a b => funext fun d => d.elim0⟩

/-- An extended real whose absolute value `max a (-a)` lies strictly below `+∞` (the value the word `0x7F800000`
    denotes) is a real number: at `⊤` and at `⊥` the absolute value is `⊤`, which is not below itself. -/
private theorem real_of_abs_lt (a : EReal)
    (h : FloatOps.cmpf (F := Ideal) (φ := .f32) .olt (FloatOps.hostAbsf a) (FloatOps.ofBits .f32 0x7F800000#32) = 1#1) :
    ∃ r : ℝ, a = (r : EReal) := by
  have htop : Ideal.ofBits .f32 0x7F800000#32 = ⊤ := by simp [Ideal.ofBits, Ideal.ieee]
  change Ideal.cmp .olt (max a (-a)) (Ideal.ofBits .f32 0x7F800000#32) = 1#1 at h
  rw [htop] at h
  induction a using EReal.rec with
  | bot => simp [Ideal.cmp] at h
  | coe r => exact ⟨r, rfl⟩
  | top => simp [Ideal.cmp] at h

/-- A 32-bit word that is, read signed, at least 0 and below 1024 has an unsigned value below 1024: a word with the
    sign bit set reads negative, so the first comparison excludes it, and the other words read the same both ways. -/
private theorem toNat_lt_of_cmp (a : BitVec 32) (h1 : IntOp.cmpi .sge a 0#32 = 1#1) (h2 : IntOp.cmpi .slt a 1024#32 = 1#1) :
    a.toNat < 1024 := by
  rw [IntOp.cmpi_sge] at h1
  rw [IntOp.cmpi_slt] at h2
  have e0 : (0#32 : BitVec 32).toInt = 0 := by decide
  have e1 : (1024#32 : BitVec 32).toInt = 1024 := by decide
  rw [e0] at h1
  rw [e1] at h2
  rw [BitVec.toInt_eq_toNat_cond] at h1 h2
  have := a.isLt
  split at h1 <;> omega

/-- The printed precondition, all ones, gives the admissibility of the inputs. -/
theorem adm_of_pre [Cert.Pre_finite_inputs.Facts] (x : SIn.Idx → EReal) (w0 w1 : SW.Idx → EReal) (fov0 fov1 : IVec SFov 32)
    (h : Cert.Pre_finite_inputs.fn (F := Ideal) x w0 w1 fov0 fov1 = fun _ => 1#1) : Adm x w0 w1 fov0 fov1 := by
  -- the predicate's one element, with the printed chain of operations in view
  have h0 := congrFun h ValueIdx.ix0
  unfold Cert.Pre_finite_inputs.fn Cert.Pre_finite_inputs.fn_part1 at h0
  dsimp only at h0
  -- it is the conjunction of five "for all elements": each of them is 1
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  refine ⟨?_, ?_, ?_, ?_, ?_⟩
  -- the floats: `|x i| < +∞` at every index `i` (the broadcast scalar reads `+∞` everywhere), so `x i` is real
  · choose r hr using fun i => real_of_abs_lt (x i) (Host.reduce_andi_all _ _ _ _ _ h1 i)
    exact ⟨r, funext hr⟩
  · choose r hr using fun i => real_of_abs_lt (w0 i) (Host.reduce_andi_all _ _ _ _ _ h2 i)
    exact ⟨r, funext hr⟩
  · choose r hr using fun i => real_of_abs_lt (w1 i) (Host.reduce_andi_all _ _ _ _ _ h3 i)
    exact ⟨r, funext hr⟩
  -- the index words: `0 ≤ fov i` and `fov i < 1024`, both signed, at every index `i`
  · intro i
    obtain ⟨ha, hb⟩ := IntOp.andi_eq_one.1 (Host.reduce_andi_all _ _ _ _ _ h4 i)
    exact toNat_lt_of_cmp (fov0 i) ha hb
  · intro i
    obtain ⟨ha, hb⟩ := IntOp.andi_eq_one.1 (Host.reduce_andi_all _ _ _ _ _ h5 i)
    exact toNat_lt_of_cmp (fov1 i) ha hb

end Cert.Resize

end
-- ==== Proof.Algebra.lean ====
/-
  The algebra that joins the two programs: with real inputs, the dense-matrix double product in three partial
  products each (`plane`) is the two nested eight-tap sums (`resized`).

  Every low part is a real number minus itself, zero; a sum of products with a zero factor is zero; what is left,
  `Σⱼ (Σᵢ W0[i, o1] · x[i, j]) · W1[j, o2]` with `W[i, o] = Σₚ [row p o = i] · w[p, o]`, is, after exchanging the sums
  and collapsing each indicator, `Σₚ (Σ_q x[row0 q o1, row1 p o2] · w0[q, o1]) · w1[p, o2]`. Distributing a factor over
  a sum needs the factors real: this is where the finiteness of the inputs is used.
-/
import proofs.«414116_j1726576856659_2_alg».proof.Proof.Spec

noncomputable section

open scoped BigOperators

namespace Cert.Resize

open Idealize.ShloMosaic Idealize.ShloMosaic.ValueIdx

/-- The embedding of the reals in the extended reals carries a finite sum to the sum of the embedded terms. -/
private theorem coe_sum {ι : Type} (s : Finset ι) (f : ι → ℝ) :
    ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

/-- A low part of a real entry: a real number minus itself, zero. -/
private theorem coe_sub_self (r : ℝ) : ((r : ℝ) : EReal) - ((r : ℝ) : EReal) = 0 := by
  rw [← EReal.coe_sub, sub_self, EReal.coe_zero]

/-- With real weights the dense matrix is real: entry `(i, o)` is the real sum of the weights of the taps of `o`
    that name `i`. -/
private theorem dense_coe (fov : IVec SFov 32) (wr : SW.Idx → ℝ) (i : Fin 1024) (o : Fin 512) :
    dense fov (fun k => ((wr k : ℝ) : EReal)) i o
      = ((∑ p : Fin 8, if row fov p o = i then wr (ix5 p o 0 0 0) else 0 : ℝ) : EReal) := by
  unfold dense
  rw [coe_sum]
  refine Finset.sum_congr rfl fun p _ => ?_
  split_ifs
  · rfl
  · exact EReal.coe_zero.symm

/-- The first product on real operands: the two partial products with a low part vanish, the third is the real
    matrix product. -/
private theorem stage1_coe (AR : Fin 512 → Fin 1024 → ℝ) (XR : Fin 1024 → Fin 1024 → ℝ)
    (o : Fin 512) (j : Fin 1024) :
    stage1 (fun o i => ((AR o i : ℝ) : EReal)) (fun o i => ((AR o i : ℝ) : EReal) - ((AR o i : ℝ) : EReal))
        (fun i j => ((XR i j : ℝ) : EReal)) o j
      = ((∑ i : Fin 1024, AR o i * XR i j : ℝ) : EReal) := by
  unfold stage1
  simp only [coe_sub_self, mul_zero, zero_mul, Finset.sum_const_zero, add_zero, ← EReal.coe_mul, ← coe_sum]

/-- The second product on real operands, likewise. -/
private theorem stage2_coe (YR : Fin 512 → Fin 1024 → ℝ) (BR : Fin 1024 → Fin 512 → ℝ) (o1 o2 : Fin 512) :
    stage2 (fun o j => ((YR o j : ℝ) : EReal)) (fun j o => ((BR j o : ℝ) : EReal))
        (fun j o => ((BR j o : ℝ) : EReal) - ((BR j o : ℝ) : EReal)) o1 o2
      = ((∑ j : Fin 1024, YR o1 j * BR j o2 : ℝ) : EReal) := by
  unfold stage2
  simp only [coe_sub_self, mul_zero, zero_mul, Finset.sum_const_zero, add_zero, ← EReal.coe_mul, ← coe_sum]

/-- Both products on real operands: the plain real double product. -/
private theorem plane_coe (AR : Fin 512 → Fin 1024 → ℝ) (BR : Fin 1024 → Fin 512 → ℝ)
    (XR : Fin 1024 → Fin 1024 → ℝ) (o1 o2 : Fin 512) :
    plane (fun o i => ((AR o i : ℝ) : EReal)) (fun o i => ((AR o i : ℝ) : EReal) - ((AR o i : ℝ) : EReal))
        (fun j o => ((BR j o : ℝ) : EReal)) (fun j o => ((BR j o : ℝ) : EReal) - ((BR j o : ℝ) : EReal))
        (fun i j => ((XR i j : ℝ) : EReal)) o1 o2
      = ((∑ j : Fin 1024, (∑ i : Fin 1024, AR o1 i * XR i j) * BR j o2 : ℝ) : EReal) := by
  unfold plane
  have h1 : stage1 (fun o i => ((AR o i : ℝ) : EReal))
      (fun o i => ((AR o i : ℝ) : EReal) - ((AR o i : ℝ) : EReal)) (fun i j => ((XR i j : ℝ) : EReal))
      = fun o j => ((∑ i : Fin 1024, AR o i * XR i j : ℝ) : EReal) := by
    funext o j
    exact stage1_coe AR XR o j
  rw [h1]
  exact stage2_coe (fun o j => ∑ i : Fin 1024, AR o i * XR i j) BR o1 o2

/-- The identity in the reals, for any two index maps `r0 r1` and tap weights `a c`: exchange the sums and collapse
    each indicator on the one index it names. -/
private theorem real_join (r0 r1 : Fin 8 → Fin 1024) (xr : Fin 1024 → Fin 1024 → ℝ) (a c : Fin 8 → ℝ) :
    ∑ j : Fin 1024, (∑ i : Fin 1024, (∑ q : Fin 8, if r0 q = i then a q else 0) * xr i j)
        * (∑ p : Fin 8, if r1 p = j then c p else 0)
      = ∑ p : Fin 8, (∑ q : Fin 8, xr (r0 q) (r1 p) * a q) * c p := by
  have inner : ∀ j : Fin 1024, (∑ i : Fin 1024, (∑ q : Fin 8, if r0 q = i then a q else 0) * xr i j)
      = ∑ q : Fin 8, xr (r0 q) j * a q := by
    intro j
    simp only [Finset.sum_mul, ite_mul, zero_mul]
    rw [Finset.sum_comm]
    refine Finset.sum_congr rfl fun q _ => ?_
    rw [Finset.sum_ite_eq]
    simp only [Finset.mem_univ, if_true, mul_comm]
  simp only [inner, Finset.mul_sum, mul_ite, mul_zero]
  rw [Finset.sum_comm]
  refine Finset.sum_congr rfl fun p _ => ?_
  rw [Finset.sum_ite_eq]
  simp only [Finset.mem_univ, if_true]

/-- THE JOIN: on admissible inputs the plane `(b, ch)` of the double product of the dense matrices, low parts
    included, is the resized image there. -/
theorem plane_eq_resized {x : SIn.Idx → EReal} {w0 w1 : SW.Idx → EReal} {fov0 fov1 : IVec SFov 32}
    (hA : Adm x w0 w1 fov0 fov1) (b : Fin 16) (ch : Fin 3) (o1 o2 : Fin 512) :
    plane (fun o i => dense fov0 w0 i o) (fun o i => dense fov0 w0 i o - dense fov0 w0 i o)
        (fun j o => dense fov1 w1 j o) (fun j o => dense fov1 w1 j o - dense fov1 w1 j o)
        (fun i j => x (ix4 b ch i j)) o1 o2
      = resized x w0 w1 fov0 fov1 b ch o1 o2 := by
  obtain ⟨xr, rfl⟩ := hA.x_real
  obtain ⟨ar, rfl⟩ := hA.w0_real
  obtain ⟨cr, rfl⟩ := hA.w1_real
  simp only [dense_coe]
  rw [plane_coe (fun o i => ∑ p : Fin 8, if row fov0 p o = i then ar (ix5 p o 0 0 0) else 0)
    (fun j o => ∑ p : Fin 8, if row fov1 p o = j then cr (ix5 p o 0 0 0) else 0)
    (fun i j => xr (ix4 b ch i j)) o1 o2]
  unfold resized
  simp only [← EReal.coe_mul, ← coe_sum]
  exact congrArg _ (real_join (fun q => row fov0 q o1) (fun p => row fov1 p o2)
    (fun i j => xr (ix4 b ch i j)) (fun q => ar (ix5 q o1 0 0 0)) (fun p => cr (ix5 p o2 0 0 0)))

end Cert.Resize

end
-- ==== Proof.LibPlainDot.lean ====
/-
  A PLAIN MATRIX PRODUCT READ AT AN INDEX, over the extended reals.

  For the dimension numbers of `[M, K] × [K, N] → [M, N]` (contract the left operand's columns with the right
  operand's rows, no batch axis: `DotDims.plain M K N`), a product accumulated into the zero matrix is, at row `p` and
  column `j`, the sum over `k` of `L[p, k] · R[k, j]`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable (M K N : Nat)

/-- The left operand's row is the result's row. -/
theorem lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column is the contraction index. -/
theorem lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction index. -/
theorem rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the result's column. -/
theorem rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- THE PRODUCT AT `(p, j)`, accumulated into zero: `∑ₖ L[p, k] · R[k, j]` (stated over `matmul`, the name a printed
    program applies). -/
theorem matmul_zero_apply {φ₁ φ₂ : FTy} (prec : Option ContractPrecision)
    (L : FVec Ideal (⟨2, ![M, K]⟩ : Shape) φ₁) (R : FVec Ideal (⟨2, ![K, N]⟩ : Shape) φ₂) (p : Fin M) (j : Fin N) :
    matmul (F := Ideal) (DotDims.plain M K N) prec L R (constant (⟨2, ![M, N]⟩ : Shape) .f32 0x00000000#32) (ix2 p j)
      = ∑ k : Fin K, L (ix2 p k) * R (ix2 k j) := by
  show FloatOps.matmul (DotDims.plain M K N) prec L R (constant (⟨2, ![M, N]⟩ : Shape) .f32 0x00000000#32) (ix2 p j) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact lhs_0 M K N _ _
      | ⟨1, _⟩ => exact (lhs_1 M K N _ _).trans hk)
  have er : (DotDims.plain M K N).rhsIdx (ix2 p j) ((contrEquiv1 (DotDims.plain M K N) K rfl rfl).symm k) = ix2 k j :=
    funext fun a => Fin.ext (by
      match a with
      | ⟨0, _⟩ => exact (rhs_0 M K N _ _).trans hk
      | ⟨1, _⟩ => exact rhs_1 M K N _ _)
  rw [el, er]

end Idealize.ShloMosaic.PlainDot

end
-- ==== Proof.KernelBody.lean ====
/-
  What the kernel body leaves in its output block, read at an index: block row `s` (one of the two planes of a grid
  step) at `(o1, o2)` is `plane` of the four weight blocks and of plane `s` of the image block.

  The block is written by two stores, one per plane; each stores `(Wr · X) · Wc` computed as three partial products on
  each side (high·high + high·low + low·high), every product accumulated into the zero matrix. Over the extended reals a
  change of format is the identity, so the stored value at `(o1, o2)` is, term for term, `stage2 (stage1 …)`.
-/
import proofs.«414116_j1726576856659_2_alg».proof.Proof.Spec
import proofs.«414116_j1726576856659_2_alg».proof.Proof.LibPlainDot
import proofs.«414116_j1726576856659_2_alg».proof.Proof.Gen.KernelIdeal.Frame
import Idealize.ShloMosaic.Lib.Pipeline.Value
import Idealize.ShloMosaic.Lib.ValueLayout

noncomputable section

open scoped BigOperators

namespace Cert.Resize

open Idealize.ShloMosaic Idealize.ShloMosaic.ValueIdx
open Cert.KernelIdeal Cert.KernelIdeal.Gen

namespace KernelBody

/-! ## The two matrix products at an index -/

/-- A 512 × 1024 matrix times a 1024 × 1024 matrix, accumulated into zero: at `(p, j)` it is `∑ₖ L[p, k] · R[k, j]`. -/
theorem mm1024 {φ₁ φ₂ : FTy} (Lm : FVec Ideal S512x1024 φ₁) (Rm : FVec Ideal S1024x1024 φ₂) (p : Fin 512) (j : Fin 1024) :
    matmul (F := Ideal) dot_S512x1024_S1024x1024_S512x1024_1_0_0_1_n_n none Lm Rm
        (constant (F := Ideal) S512x1024 .f32 0x00000000#32) (ix2 p j)
      = ∑ k : Fin 1024, Lm (ix2 p k) * Rm (ix2 k j) :=
  PlainDot.matmul_zero_apply 512 1024 1024 none Lm Rm p j

/-- A 512 × 1024 matrix times a 1024 × 512 matrix, accumulated into zero: at `(p, j)` it is `∑ₖ L[p, k] · R[k, j]`. -/
theorem mm512 {φ₁ φ₂ : FTy} (Lm : FVec Ideal S512x1024 φ₁) (Rm : FVec Ideal S1024x512 φ₂) (p : Fin 512) (j : Fin 512) :
    matmul (F := Ideal) dot_S512x1024_S1024x512_S512x512_1_0_0_1_n_n none Lm Rm
        (constant (F := Ideal) S512x512 .f32 0x00000000#32) (ix2 p j)
      = ∑ k : Fin 1024, Lm (ix2 p k) * Rm (ix2 k j) :=
  PlainDot.matmul_zero_apply 512 1024 512 none Lm Rm p j

/-! ## The two stages at an index -/

/-- The first product's three partial products at `(o, j)`: `A · Xb + A · (X − Xe) + Alo · Xb`, where `Xb` is the image
    in the shorter format, `X − Xe` its low part. -/
theorem first_apply (A Alo : FVec Ideal S512x1024 .bf16) (Xb : FVec Ideal S1024x1024 .bf16)
    (X Xe : FVec Ideal S1024x1024 .f32) (h : FTy.bf16.bits < FTy.f32.bits) (o : Fin 512) (j : Fin 1024) :
    addf (addf (matmul (F := Ideal) dot_S512x1024_S1024x1024_S512x1024_1_0_0_1_n_n none A Xb
                  (constant (F := Ideal) S512x1024 .f32 0x00000000#32))
               (matmul (F := Ideal) dot_S512x1024_S1024x1024_S512x1024_1_0_0_1_n_n none A (truncf .bf16 (subf X Xe) h)
                  (constant (F := Ideal) S512x1024 .f32 0x00000000#32)))
         (matmul (F := Ideal) dot_S512x1024_S1024x1024_S512x1024_1_0_0_1_n_n none Alo Xb
            (constant (F := Ideal) S512x1024 .f32 0x00000000#32)) (ix2 o j)
      = (∑ i : Fin 1024, A (ix2 o i) * Xb (ix2 i j) + ∑ i : Fin 1024, A (ix2 o i) * (X (ix2 i j) - Xe (ix2 i j)))
          + ∑ i : Fin 1024, Alo (ix2 o i) * Xb (ix2 i j) := by
  rw [addf_apply, addf_apply, mm1024, mm1024, mm1024]; rfl

/-- The second product's three partial products of a first-stage result `Y`, stored as a one-plane block: at
    `(u, o1, o2)` it is `stage2` of `Y` (the change of format of `Y` is the identity, its low part `Y − Y`). -/
theorem second_apply (Y : FVec Ideal S512x1024 .f32) (B Blo : FVec Ideal S1024x512 .bf16)
    (h : FTy.bf16.bits < FTy.f32.bits) (u : Fin 1) (o1 o2 : Fin 512) :
    shapeCast S1x512x512
      (addf (addf (matmul (F := Ideal) dot_S512x1024_S1024x512_S512x512_1_0_0_1_n_n none (truncf .bf16 Y h) B
                     (constant (F := Ideal) S512x512 .f32 0x00000000#32))
                  (matmul (F := Ideal) dot_S512x1024_S1024x512_S512x512_1_0_0_1_n_n none (truncf .bf16 Y h) Blo
                     (constant (F := Ideal) S512x512 .f32 0x00000000#32)))
            (matmul (F := Ideal) dot_S512x1024_S1024x512_S512x512_1_0_0_1_n_n none (truncf .bf16 (subf Y Y) h) B
               (constant (F := Ideal) S512x512 .f32 0x00000000#32)))
      shapeCasts_S512x512_S1x512x512 (ix3 u o1 o2)
      = stage2 (fun o j => Y (ix2 o j)) (fun j o => B (ix2 j o)) (fun j o => Blo (ix2 j o)) o1 o2 := by
  rw [shapeCast_ab_1ab_apply, addf_apply, addf_apply, mm512, mm512, mm512]; rfl

/-! ## What each store writes, at an index -/

/-- The value stored for plane 0, at `(u, o1, o2)` of its one-plane block: `plane` of the weight blocks and of the
    one-plane image block `v8` read as a matrix. -/
theorem pay6_apply (v0 v2 : Vec Ideal S512x1024 .bf16) (v4 v6 : Vec Ideal S1024x512 .bf16)
    (v8 : Vec Ideal S1x1024x1024 .f32) (u : Fin 1) (o1 o2 : Fin 512) :
    (k0_pay6 (F := Ideal) v0 v2 v4 v6 v8 : S1x512x512.Idx → EReal) (ix3 u o1 o2)
      = plane (fun o i => v0 (ix2 o i)) (fun o i => v2 (ix2 o i)) (fun j o => v4 (ix2 j o)) (fun j o => v6 (ix2 j o))
          (fun i j => v8 (ix3 (0 : Fin 1) i j)) o1 o2 := by
  unfold k0_pay6 k0_pay2 k0_pay3 k0_pay4 k0_pay5
  simp only [shapeCast_self]
  refine (second_apply _ _ _ _ u o1 o2).trans ?_
  unfold plane
  refine congrArg (fun Y => stage2 Y _ _ o1 o2) (funext fun o => funext fun j => ?_)
  refine (first_apply _ _ _ _ _ _ o j).trans ?_
  unfold stage1
  simp only [truncf_apply, shapeCast_1ab_ab_apply]

/-- The value stored for plane 1, likewise, over the one-plane image block `v31`: the same arithmetic, its operands
    named one by one (the image as a matrix, in the shorter format, and back: all three are the image). -/
theorem pay1_apply (v0 v2 : Vec Ideal S512x1024 .bf16) (v4 v6 : Vec Ideal S1024x512 .bf16)
    (v31 : Vec Ideal S1x1024x1024 .f32) (u : Fin 1) (o1 o2 : Fin 512) :
    (k0_pay1 (F := Ideal) (k0_pay2 v0) (k0_pay3 v2) (k0_pay4 v4) (k0_pay5 v6) (k0_pay7 v31) (k0_pay8 v31) (k0_pay9 v31)
        : S1x512x512.Idx → EReal) (ix3 u o1 o2)
      = plane (fun o i => v0 (ix2 o i)) (fun o i => v2 (ix2 o i)) (fun j o => v4 (ix2 j o)) (fun j o => v6 (ix2 j o))
          (fun i j => v31 (ix3 (0 : Fin 1) i j)) o1 o2 := by
  unfold k0_pay1 k0_pay9 k0_pay8 k0_pay7 k0_pay2 k0_pay3 k0_pay4 k0_pay5
  simp only [shapeCast_self]
  refine (second_apply _ _ _ _ u o1 o2).trans ?_
  unfold plane
  refine congrArg (fun Y => stage2 Y _ _ o1 o2) (funext fun o => funext fun j => ?_)
  refine (first_apply _ _ _ _ _ _ o j).trans ?_
  unfold stage1
  simp only [truncf_apply, shapeCast_1ab_ab_apply]

/-! ## The rectangles of the two planes

Plane `s` of a three-axis block is the unit-stride rectangle at offset `(s, 0, 0)` of one plane's sizes: its local index
`(0, a, b)` is the block's index `(s, a, b)` (each coordinate is offset + 1 × local coordinate). -/

/-- An index of plane 0 is outside plane 1's rectangle: its first coordinate is below the rectangle's first offset. -/
theorem not_mem_r0_5 (o1 o2 : Fin 512) (h0 : 0 < 2) :
    (ix3 (⟨0, h0⟩ : Fin 2) o1 o2 : S2x512x512.Idx) ∉ r0_5.set := by
  rw [Rect.mem_set_unit]; intro h; exact Nat.not_succ_le_zero 0 (h 0).1

/-- Plane 0 of the result block. -/
theorem emb_r0_3 (o1 o2 : Fin 512) (h0 : 0 < 2) :
    r0_3.emb (ix3 (0 : Fin 1) o1 o2) = (ix3 (⟨0, h0⟩ : Fin 2) o1 o2 : S2x512x512.Idx) := by
  funext a; apply Fin.ext
  match a with
  | ⟨0, _⟩ => rfl
  | ⟨1, _⟩ => show 0 + 1 * (o1 : ℕ) = (o1 : ℕ); omega
  | ⟨2, _⟩ => show 0 + 1 * (o2 : ℕ) = (o2 : ℕ); omega

/-- Plane 1 of the result block. -/
theorem emb_r0_5 (o1 o2 : Fin 512) (h1 : 1 < 2) :
    r0_5.emb (ix3 (0 : Fin 1) o1 o2) = (ix3 (⟨1, h1⟩ : Fin 2) o1 o2 : S2x512x512.Idx) := by
  funext a; apply Fin.ext
  match a with
  | ⟨0, _⟩ => rfl
  | ⟨1, _⟩ => show 0 + 1 * (o1 : ℕ) = (o1 : ℕ); omega
  | ⟨2, _⟩ => show 0 + 1 * (o2 : ℕ) = (o2 : ℕ); omega

/-- Plane 0 of the image block. -/
theorem idx_r0_2 (i j : Fin 1024) (h0 : 0 < 2) :
    r0_2.idx (ix3 (0 : Fin 1) i j) = (ix3 (⟨0, h0⟩ : Fin 2) i j : S2x1024x1024.Idx) := by
  funext a; apply Fin.ext
  match a with
  | ⟨0, _⟩ => rfl
  | ⟨1, _⟩ => show 0 + 1 * (i : ℕ) = (i : ℕ); omega
  | ⟨2, _⟩ => show 0 + 1 * (j : ℕ) = (j : ℕ); omega

/-- Plane 1 of the image block. -/
theorem idx_r0_4 (i j : Fin 1024) (h1 : 1 < 2) :
    r0_4.idx (ix3 (0 : Fin 1) i j) = (ix3 (⟨1, h1⟩ : Fin 2) i j : S2x1024x1024.Idx) := by
  funext a; apply Fin.ext
  match a with
  | ⟨0, _⟩ => rfl
  | ⟨1, _⟩ => show 0 + 1 * (i : ℕ) = (i : ℕ); omega
  | ⟨2, _⟩ => show 0 + 1 * (j : ℕ) = (j : ℕ); omega

end KernelBody

open KernelBody

/-- THE BODY'S OUTPUT BLOCK AT `(s, o1, o2)`. The weight blocks are read whole. Plane 0 lies outside the last store's
    rectangle and inside the first store's, so it reads the first store's value; plane 1 is the last store's rectangle.
    Either value is `plane` of the weights and of that plane of the image block. -/
theorem out0_5_apply (x0 : Vec Ideal S2x1024x1024 .f32) (x1 x2 : Vec Ideal S512x1024 .bf16)
    (x3 x4 : Vec Ideal S1024x512 .bf16) (s : Fin 2) (o1 o2 : Fin 512) :
    (out0_5 (F := Ideal) x0 x1 x2 x3 x4 : S2x512x512.Idx → EReal) (ix3 s o1 o2)
      = plane (fun o i => x1 (ix2 o i)) (fun o i => x2 (ix2 o i)) (fun j o => x3 (ix2 j o)) (fun j o => x4 (ix2 j o))
          (fun i j => x0 (ix3 s i j)) o1 o2 := by
  have hz2 : (![0, 0] : Fin 2 → ℕ) = fun _ => 0 := by funext a; match a with | ⟨0, _⟩ => rfl | ⟨1, _⟩ => rfl
  unfold out0_5
  simp only [View.ld_unit_zero (S := S512x1024) hz2, View.ld_unit_zero (S := S1024x512) hz2]
  match s with
  | ⟨0, h0⟩ =>
    refine (View.canon_cons_of_not_mem _ _ ?_).trans ?_
    · exact not_mem_r0_5 o1 o2 h0
    rw [← emb_r0_3 o1 o2 h0]
    refine (View.canon_cons_emb r0_3 _ [] _).trans ?_
    refine (pay6_apply x1 x2 x3 x4 _ 0 o1 o2).trans ?_
    refine congrArg (fun X => plane _ _ _ _ X o1 o2) (funext fun i => funext fun j => ?_)
    exact congrArg x0 (idx_r0_2 i j h0)
  | ⟨1, h1⟩ =>
    rw [← emb_r0_5 o1 o2 h1]
    refine (View.canon_cons_emb r0_5 _ _ _).trans ?_
    refine (pay1_apply x1 x2 x3 x4 _ 0 o1 o2).trans ?_
    refine congrArg (fun X => plane _ _ _ _ X o1 o2) (funext fun i => funext fun j => ?_)
    exact congrArg x0 (idx_r0_4 i j h1)

end Cert.Resize

end
-- ==== Proof.LibGatherScatter.lean ====
/-
  STABLEHLO'S GATHER AND SCATTER READ AT AN INDEX, for the dimension numbers that indexing an array by an integer
  array lowers to.

  `x[idx]` of a vector or of a matrix's rows is a `stablehlo.gather` whose start indices are a column `[M, 1]`;
  `x.at[idx].add(v)` of a vector, of a matrix's rows, or of a matrix at index pairs is a `stablehlo.scatter` with an
  `add` body whose scatter indices are a column `[M, 1]` or pairs `[M, 2]`. For each of these five dimension-number
  shapes this file builds the record from the sizes (`vecGatherDims`, `rowGatherDims`, `vecScatterDims`,
  `rowScatterDims`, `pairScatterDims`) and reads the operation at an index:

  * a gather's result element is the operand's at the start index, read SIGNED and CLAMPED into the operand
    (`vecGather_apply`, `rowGather_apply`);
  * a scatter's update lands on an operand element exactly when its index, read SIGNED and NOT clamped, is that
    element's (`vecScatter_resultIdx`, `rowScatter_resultIdx`, `pairScatter_resultIdx`); an update whose index is
    outside the operand lands nowhere;
  * so, over the extended reals, an accumulating scatter's result element is the operand's plus the sum of the updates
    whose index is that element's (`vecScatterAdd_apply`, `rowScatterAdd_apply`, `pairScatterAdd_apply`).
-/
import Idealize.ShloMosaic.PureOps.Ideal
import Idealize.ShloMosaic.Lib.ValueIdx

noncomputable section

open scoped BigOperators

namespace Idealize.ShloMosaic.GatherScatter

open Idealize.ShloMosaic Idealize.ShloMosaic.ValueIdx

/-! ## A scatter's result index, in general -/

section General
variable {s si u : Shape}

/-- An axis among the removed ones is not among the kept ones. -/
theorem not_mem_kept {axes : List (Fin s.rank)} {a : Fin s.rank} (h : a ∈ axes) : a ∉ s.kept axes := by
  intro hk
  have := (List.mem_filter.mp hk).2
  simp only [decide_not, Bool.not_eq_eq_eq_not, Bool.not_true, decide_eq_false_iff_not] at this
  exact this h

/-- An axis not among the removed ones is among the kept ones. -/
theorem mem_kept {axes : List (Fin s.rank)} {a : Fin s.rank} (h : a ∉ axes) : a ∈ s.kept axes :=
  List.mem_filter.mpr ⟨List.mem_finRange a, by simpa using h⟩

/-- An update lands on operand index `i` exactly when, on every operand axis, its start plus its window
    coordinate is `i`'s coordinate: the in-range test of `ScatterDims.resultIdx?` is then `i`'s own range. -/
theorem resultIdx?_eq_some_iff (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro he a
      have hi := congrFun (Option.some.inj he) a
      have hv := congrArg Fin.val hi
      simp only at hv
      have := (h a).1
      omega
    · intro H
      congr 1
      funext a
      refine Fin.ext ?_
      have := H a
      simp only
      omega
  · rename_i h
    constructor
    · intro he; cases he
    · intro H
      exfalso
      apply h
      intro a
      have := H a
      have := (i a).isLt
      omega

variable {t : Shape}

/-- A gather's operand index on an axis is the clamped start plus the batching coordinate plus the offset
    coordinate. -/
theorem operandIdx_val (d : GatherDims s si t) {w : Nat} (j : t.Idx) (idx : IVec si w) (a : Fin s.rank) :
    (d.operandIdx j idx a).val = d.start j idx a + d.batchCoord j a + d.offCoord j a := rfl

/-- A gather without batching axes has no batching coordinate. -/
theorem batchCoord_of_nil (d : GatherDims s si t) (h : d.operandBatchingDims = []) (j : t.Idx) (a : Fin s.rank) :
    d.batchCoord j a = 0 :=
  d.batchCoord_eq_zero j a (by rw [h]; exact List.not_mem_nil)

/-- On a collapsed axis a gather has no offset coordinate. -/
theorem offCoord_of_collapsed (d : GatherDims s si t) (j : t.Idx) {a : Fin s.rank} (h : a ∈ d.collapsedSliceDims) :
    d.offCoord j a = 0 :=
  d.offCoord_eq_zero j a fun hk => ((d.mem_sKept a).mp hk).1 h

end General

/-! ## Scalars scattered into a vector by a column of indices

What `x.at[idx].add(v)` of a vector `x : [N]` at `idx : [M]` lowers to: scatter indices `[M, 1]`, updates `[M]`,
update_window_dims `[]`, inserted_window_dims `[0]`, scatter_dims_to_operand_dims `[0]`, index_vector_dim 1. -/

section VecScatter

/-- Those dimension numbers for an operand `[N]`, scatter indices `[M, 1]` and updates `[M]`; their conditions
    `wf` are decided on a program's literal shapes. -/
abbrev vecScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

/-- Update `j`'s window starts, on the operand's one axis, at the index `idx[j, 0]` read signed. -/
theorem vecScatter_start (idx : IVec ⟨2, ![M, 1]⟩ w) (j : Fin M) (a : Fin (⟨1, ![N]⟩ : Shape).rank) :
    (vecScatterDims N M wf).start (ix1 j) idx a = (idx (ix2 j 0)).toInt := by
  obtain rfl : a = 0 := Subsingleton.elim _ _
  unfold ScatterDims.start
  rw [dif_pos (show (0 : Fin 1) ∈ (vecScatterDims N M wf).scatterDimsToOperandDims from List.mem_singleton.mpr rfl)]
  have hsi : (vecScatterDims N M wf).siIdx (ix1 j) ⟨List.idxOf (0 : Fin 1) (vecScatterDims N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- The updates are scalars: the window coordinate is `0`. -/
theorem vecScatter_window (j : (⟨1, ![M]⟩ : Shape).Idx) (a : Fin (⟨1, ![N]⟩ : Shape).rank) :
    (vecScatterDims N M wf).window j a = 0 := by
  obtain rfl : a = 0 := Subsingleton.elim _ _
  unfold ScatterDims.window
  rw [dif_neg (not_mem_kept (List.mem_singleton.mpr rfl))]

/-- UPDATE `j` LANDS ON ELEMENT `i` exactly when its index `idx[j, 0]`, read signed, is `i`. -/
theorem vecScatter_resultIdx (idx : IVec ⟨2, ![M, 1]⟩ w) (j : Fin M) (i : Fin N) :
    (vecScatterDims N M wf).resultIdx? (ix1 j) idx = some (ix1 i) ↔ (idx (ix2 j 0)).toInt = (i.val : Int) := by
  rw [resultIdx?_eq_some_iff]
  constructor
  · intro H
    have := H 0
    rw [vecScatter_start, vecScatter_window, Nat.cast_zero, add_zero] at this
    exact this
  · intro H a
    obtain rfl : a = 0 := Subsingleton.elim _ _
    rw [vecScatter_start, vecScatter_window, Nat.cast_zero, add_zero]
    exact H

end VecScatter

/-! ## A vector gathered by a column of indices

What `x[idx]` of a vector `x : [N]` at `idx : [M]` lowers to: start indices `[M, 1]`, result `[M]`, offset_dims
`[]`, collapsed_slice_dims `[0]`, start_index_map `[0]`, index_vector_dim 1, slice_sizes `[1]`. -/

section VecGather
variable {α : Type}

/-- Those dimension numbers for an operand `[N]`, start indices `[M, 1]` and result `[M]`; their conditions `wf`
    are decided on a program's literal shapes. -/
abbrev vecGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

variable {N M w : Nat} (wf : GatherDims.WF ⟨1, ![N]⟩ ⟨2, ![M, 1]⟩ ⟨1, ![M]⟩ [] [0] [] [0] [] 1 ![1])

/-- Result element `j`'s slice starts, on the operand's one axis, at the index `idx[j, 0]` read signed and clamped
    into `[0, N − 1]`. -/
theorem vecGather_start (idx : IVec ⟨2, ![M, 1]⟩ w) (j : Fin M) (a : Fin (⟨1, ![N]⟩ : Shape).rank) :
    (vecGatherDims N M wf).start (ix1 j) idx a = min (idx (ix2 j 0)).toInt.toNat (N - 1) := by
  obtain rfl : a = 0 := Subsingleton.elim _ _
  have hmem : (0 : Fin 1) ∈ (vecGatherDims N M wf).startIndexMap := List.mem_singleton.mpr rfl
  have hsi : (vecGatherDims N M wf).siIdx (ix1 j) ⟨List.idxOf (0 : Fin 1) (vecGatherDims N M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- THE GATHER READ AT `j`: the operand at the start index `idx[j, 0]`, read signed and clamped into
    `[0, N − 1]`. -/
theorem vecGather_apply (hN : 0 < N) (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (vecGatherDims N M wf) x idx (ix1 j) = x (ix1 ⟨min (idx (ix2 j 0)).toInt.toNat (N - 1), by omega⟩) := by
  unfold Host.gather
  congr 1
  funext a
  refine Fin.ext ?_
  rw [operandIdx_val, vecGather_start, batchCoord_of_nil _ rfl,
    offCoord_of_collapsed _ _ (by obtain rfl : a = 0 := Subsingleton.elim _ _; exact List.mem_singleton.mpr rfl)]
  obtain rfl : a = 0 := Subsingleton.elim _ _
  rfl

end VecGather

/-! ## Scalars scattered into a matrix by index pairs

What `x.at[r, c].add(v)` of a matrix `x : [N, N']` at `r, c : [M]` lowers to: scatter indices `[M, 2]` (the pairs
`(r[j], c[j])`), updates `[M]`, update_window_dims `[]`, inserted_window_dims `[0, 1]`,
scatter_dims_to_operand_dims `[0, 1]`, index_vector_dim 1. -/

section PairScatter

/-- Those dimension numbers for an operand `[N, N']`, scatter indices `[M, 2]` and updates `[M]`; their conditions
    `wf` are decided on a program's literal shapes. -/
abbrev pairScatterDims (N N' M : Nat) (wf : ScatterDims.WF ⟨2, ![N, N']⟩ ⟨2, ![M, 2]⟩ ⟨1, ![M]⟩ [] [0, 1] [0, 1] 1) :
    ScatterDims ⟨2, ![N, N']⟩ ⟨2, ![M, 2]⟩ ⟨1, ![M]⟩ where
  updateWindowDims := []
  insertedWindowDims := [0, 1]
  scatterDimsToOperandDims := [0, 1]
  indexVectorDim := 1
  wf := wf

variable {N N' M w : Nat} (wf : ScatterDims.WF ⟨2, ![N, N']⟩ ⟨2, ![M, 2]⟩ ⟨1, ![M]⟩ [] [0, 1] [0, 1] 1)

/-- Update `j`'s window starts, on the operand's row axis, at the index `idx[j, 0]` read signed. -/
theorem pairScatter_start0 (idx : IVec ⟨2, ![M, 2]⟩ w) (j : Fin M) :
    (pairScatterDims N N' M wf).start (ix1 j) idx 0 = (idx (ix2 j 0)).toInt := by
  have hmem : (0 : Fin 2) ∈ (pairScatterDims N N' M wf).scatterDimsToOperandDims :=
    (by decide : (0 : Fin 2) ∈ ([0, 1] : List (Fin 2)))
  have hsi : (pairScatterDims N N' M wf).siIdx (ix1 j) ⟨List.idxOf (0 : Fin 2) (pairScatterDims N N' M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- Update `j`'s window starts, on the operand's column axis, at the index `idx[j, 1]` read signed. -/
theorem pairScatter_start1 (idx : IVec ⟨2, ![M, 2]⟩ w) (j : Fin M) :
    (pairScatterDims N N' M wf).start (ix1 j) idx 1 = (idx (ix2 j 1)).toInt := by
  have hmem : (1 : Fin 2) ∈ (pairScatterDims N N' M wf).scatterDimsToOperandDims :=
    (by decide : (1 : Fin 2) ∈ ([0, 1] : List (Fin 2)))
  have hsi : (pairScatterDims N N' M wf).siIdx (ix1 j) ⟨List.idxOf (1 : Fin 2) (pairScatterDims N N' M wf).scatterDimsToOperandDims,
      List.idxOf_lt_length_iff.2 hmem⟩ = ix2 j 1 := by
    funext b; refine Fin.ext ?_
    match b with
    | ⟨0, _⟩ => rfl
    | ⟨1, _⟩ => rfl
  unfold ScatterDims.start
  rw [dif_pos hmem, hsi]

/-- The updates are scalars: the window coordinate is `0` on both axes. -/
theorem pairScatter_window (j : (⟨1, ![M]⟩ : Shape).Idx) (a : Fin (⟨2, ![N, N']⟩ : Shape).rank) :
    (pairScatterDims N N' M wf).window j a = 0 := by
  unfold ScatterDims.window
  rw [dif_neg (not_mem_kept (by
    match a with
    | ⟨0, _⟩ => exact (by decide : (0 : Fin 2) ∈ ([0, 1] : List (Fin 2)))
    | ⟨1, _⟩ => exact (by decide : (1 : Fin 2) ∈ ([0, 1] : List (Fin 2)))))]

/-- UPDATE `j` LANDS ON ELEMENT `(i, i')` exactly when its index pair `(idx[j, 0], idx[j, 1])`, read signed, is
    `(i, i')`. -/
theorem pairScatter_resultIdx (idx : IVec ⟨2, ![M, 2]⟩ w) (j : Fin M) (i : Fin N) (i' : Fin N') :
    (pairScatterDims N N' M wf).resultIdx? (ix1 j) idx = some (ix2 i i') ↔
      ((idx (ix2 j 0)).toInt = (i.val : Int) ∧ (idx (ix2 j 1)).toInt = (i'.val : Int)) := by
  rw [resultIdx?_eq_some_iff]
  constructor
  · intro H
    have h0 := H 0
    have h1 := H 1
    rw [pairScatter_start0, pairScatter_window, Nat.cast_zero, add_zero] at h0
    rw [pairScatter_start1, pairScatter_window, Nat.cast_zero, add_zero] at h1
    exact ⟨h0, h1⟩
  · intro H a
    match a with
    | ⟨0, _⟩ =>
      show (pairScatterDims N N' M wf).start (ix1 j) idx 0 + ((pairScatterDims N N' M wf).window (ix1 j) 0 : Int) = _
      rw [pairScatter_start0, pairScatter_window, Nat.cast_zero, add_zero]
      exact H.1
    | ⟨1, _⟩ =>
      show (pairScatterDims N N' M wf).start (ix1 j) idx 1 + ((pairScatterDims N N' M wf).window (ix1 j) 1 : Int) = _
      rw [pairScatter_start1, pairScatter_window, Nat.cast_zero, add_zero]
      exact H.2

end PairScatter

/-! ## Rows scattered into a matrix by a column of indices

What `x.at[idx].add(v)` of a matrix `x : [N, C]` at `idx : [M]` with `v : [M, C]` lowers to: scatter indices
`[M, 1]`, updates `[M, C]`, update_window_dims `[1]`, inserted_window_dims `[0]`, scatter_dims_to_operand_dims
`[0]`, index_vector_dim 1. -/

section RowScatter

/-- Those dimension numbers for an operand `[N, C]`, scatter indices `[M, 1]` and updates `[M, C]`; their
    conditions `wf` are decided on a program's literal shapes. -/
abbrev rowScatterDims (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N C M w : Nat} (wf : ScatterDims.WF ⟨2, ![N, C]⟩ ⟨2, ![M, 1]⟩ ⟨2, ![M, C]⟩ [1] [0] [0] 1)

/-- Update `(j, f)`'s window starts, on the operand's row axis, at the index `idx[j, 0]` read signed. -/
theorem rowScatter_start0 (idx : IVec ⟨2, ![M, 1]⟩ w) (j : Fin M) (f : Fin C) :
    (rowScatterDims N C M wf).start (ix2 j f) idx 0 = (idx (ix2 j 0)).toInt := by
  have hmem : (0 : Fin 2) ∈ (rowScatterDims N C M wf).scatterDimsToOperandDims := List.mem_singleton.mpr rfl
  have hsi : (rowScatterDims N C M wf).siIdx (ix2 j f) ⟨List.idxOf (0 : Fin 2) (rowScatterDims N C M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- The scatter indices name no column: on the operand's column axis the window starts at `0`. -/
theorem rowScatter_start1 (idx : IVec ⟨2, ![M, 1]⟩ w) (j : (⟨2, ![M, C]⟩ : Shape).Idx) :
    (rowScatterDims N C M wf).start j idx 1 = 0 := by
  unfold ScatterDims.start
  rw [dif_neg (by decide : (1 : Fin 2) ∉ ([0] : List (Fin 2)))]

/-- The row axis is inserted: the window coordinate on it is `0`. -/
theorem rowScatter_window0 (j : (⟨2, ![M, C]⟩ : Shape).Idx) : (rowScatterDims N C M wf).window j 0 = 0 := by
  unfold ScatterDims.window
  rw [dif_neg (not_mem_kept (List.mem_singleton.mpr rfl))]

/-- The window coordinate on the operand's column axis is the update's column. -/
theorem rowScatter_window1 (j : Fin M) (f : Fin C) : (rowScatterDims N C M wf).window (ix2 j f) 1 = f.val := by
  unfold ScatterDims.window
  rw [dif_pos (mem_kept (by decide : (1 : Fin 2) ∉ ([0] : List (Fin 2))))]
  rfl

/-- UPDATE `(j, f)` LANDS ON ELEMENT `(i, g)` exactly when its row's index `idx[j, 0]`, read signed, is `i` and its
    column `f` is `g`. -/
theorem rowScatter_resultIdx (idx : IVec ⟨2, ![M, 1]⟩ w) (j : Fin M) (f : Fin C) (i : Fin N) (g : Fin C) :
    (rowScatterDims N C M wf).resultIdx? (ix2 j f) idx = some (ix2 i g) ↔
      ((idx (ix2 j 0)).toInt = (i.val : Int) ∧ f = g) := by
  rw [resultIdx?_eq_some_iff]
  constructor
  · intro H
    have h0 := H 0
    have h1 := H 1
    rw [rowScatter_start0, rowScatter_window0, Nat.cast_zero, add_zero] at h0
    rw [rowScatter_start1, rowScatter_window1, zero_add] at h1
    exact ⟨h0, Fin.ext (Int.ofNat_inj.mp h1)⟩
  · intro H a
    match a with
    | ⟨0, _⟩ =>
      show (rowScatterDims N C M wf).start (ix2 j f) idx 0 + ((rowScatterDims N C M wf).window (ix2 j f) 0 : Int) = _
      rw [rowScatter_start0, rowScatter_window0, Nat.cast_zero, add_zero]
      exact H.1
    | ⟨1, _⟩ =>
      show (rowScatterDims N C M wf).start (ix2 j f) idx 1 + ((rowScatterDims N C M wf).window (ix2 j f) 1 : Int) = _
      rw [rowScatter_start1, rowScatter_window1, zero_add, H.2]

end RowScatter

/-! ## Rows of a matrix gathered by a column of indices

What `x[idx]` of a matrix `x : [N, C]` at `idx : [M]` lowers to: start indices `[M, 1]`, result `[M, C]`,
offset_dims `[1]`, collapsed_slice_dims `[0]`, start_index_map `[0]`, index_vector_dim 1, slice_sizes `[1, C]`. -/

section RowGather
variable {α : Type}

/-- Those dimension numbers for an operand `[N, C]`, start indices `[M, 1]` and result `[M, C]`; their conditions
    `wf` are decided on a program's literal shapes. -/
abbrev rowGatherDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N C M w : Nat} (wf : GatherDims.WF ⟨2, ![N, C]⟩ ⟨2, ![M, 1]⟩ ⟨2, ![M, C]⟩ [1] [0] [] [0] [] 1 ![1, C])

/-- Result element `(j, f)`'s slice starts, on the operand's row axis, at the index `idx[j, 0]` read signed and
    clamped into `[0, N − 1]`. -/
theorem rowGather_start0 (idx : IVec ⟨2, ![M, 1]⟩ w) (j : Fin M) (f : Fin C) :
    (rowGatherDims N C M wf).start (ix2 j f) idx 0 = min (idx (ix2 j 0)).toInt.toNat (N - 1) := by
  have hmem : (0 : Fin 2) ∈ (rowGatherDims N C M wf).startIndexMap := List.mem_singleton.mpr rfl
  have hsi : (rowGatherDims N C M wf).siIdx (ix2 j f) ⟨List.idxOf (0 : Fin 2) (rowGatherDims N C M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- The start indices name no column: on the operand's column axis the slice starts at `0`. -/
theorem rowGather_start1 (idx : IVec ⟨2, ![M, 1]⟩ w) (j : (⟨2, ![M, C]⟩ : Shape).Idx) :
    (rowGatherDims N C M wf).start j idx 1 = 0 := by
  unfold GatherDims.start
  rw [dif_neg (by decide : (1 : Fin 2) ∉ ([0] : List (Fin 2)))]

/-- The offset coordinate on the operand's column axis is the result's column. -/
theorem rowGather_offCoord1 (j : Fin M) (f : Fin C) : (rowGatherDims N C M wf).offCoord (ix2 j f) 1 = f.val := by
  unfold GatherDims.offCoord
  rw [dif_pos (mem_kept (by decide : (1 : Fin 2) ∉ ([0] ++ [] : List (Fin 2))))]
  rfl

/-- THE GATHER READ AT `(j, f)`: column `f` of the operand's row at the start index `idx[j, 0]`, read signed and
    clamped into `[0, N − 1]`. -/
theorem rowGather_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M)
    (f : Fin C) :
    Host.gather (rowGatherDims N C M wf) x idx (ix2 j f)
      = x (ix2 ⟨min (idx (ix2 j 0)).toInt.toNat (N - 1), by omega⟩ f) := by
  unfold Host.gather
  congr 1
  funext a
  refine Fin.ext ?_
  rw [operandIdx_val, batchCoord_of_nil _ rfl, Nat.add_zero]
  match a with
  | ⟨0, _⟩ =>
    show (rowGatherDims N C M wf).start (ix2 j f) idx 0 + (rowGatherDims N C M wf).offCoord (ix2 j f) 0 = _
    rw [rowGather_start0, offCoord_of_collapsed _ _ (List.mem_singleton.mpr rfl)]
    rfl
  | ⟨1, _⟩ =>
    show (rowGatherDims N C M wf).start (ix2 j f) idx 1 + (rowGatherDims N C M wf).offCoord (ix2 j f) 1 = _
    rw [rowGather_start1, rowGather_offCoord1, Nat.zero_add]

end RowGather

/-! ## The accumulating scatters over the extended reals

At the ideal instance an accumulating scatter (`Host.scatterAdd`) is each operand element plus the sum of the updates
that land on it; by the landing conditions above, the sum over the updates whose index is that element's. -/

section Sums

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

variable {φ : FTy}

/-- SCALARS ACCUMULATED INTO A VECTOR, read at `i`: the operand's element plus the sum of the updates whose index
    `idx[j, 0]`, read signed, is `i`. -/
theorem vecScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Host.scatterAdd (F := Ideal) (φ := φ) (vecScatterDims N M wf) x idx upd (ix1 i)
      = x (ix1 i) + ∑ j ∈ Finset.univ.filter (fun j : Fin M => (idx (ix2 j 0)).toInt = (i.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (vecScatter_resultIdx wf idx j i) rfl rfl

/-- SCALARS ACCUMULATED INTO A MATRIX BY INDEX PAIRS, read at `(i, i')`: the operand's element plus the sum of the
    updates whose index pair `(idx[j, 0], idx[j, 1])`, read signed, is `(i, i')`. -/
theorem pairScatterAdd_apply {N N' M w : Nat}
    (wf : ScatterDims.WF ⟨2, ![N, N']⟩ ⟨2, ![M, 2]⟩ ⟨1, ![M]⟩ [] [0, 1] [0, 1] 1)
    (x : (⟨2, ![N, N']⟩ : Shape).Idx → EReal) (idx : IVec ⟨2, ![M, 2]⟩ w) (upd : (⟨1, ![M]⟩ : Shape).Idx → EReal)
    (i : Fin N) (i' : Fin N') :
    Host.scatterAdd (F := Ideal) (φ := φ) (pairScatterDims N N' M wf) x idx upd (ix2 i i')
      = x (ix2 i i') + ∑ j ∈ Finset.univ.filter (fun j : Fin M =>
          (idx (ix2 j 0)).toInt = (i.val : Int) ∧ (idx (ix2 j 1)).toInt = (i'.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (pairScatter_resultIdx wf idx j i i') rfl rfl

/-- ROWS ACCUMULATED INTO A MATRIX, read at `(i, g)`: the operand's element plus the sum of column `g` of the
    update rows whose index `idx[j, 0]`, read signed, is `i`. -/
theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (g : Fin C) :
    Host.scatterAdd (F := Ideal) (φ := φ) (rowScatterDims N C M wf) x idx upd (ix2 i g)
      = x (ix2 i g) + ∑ j ∈ Finset.univ.filter (fun j : Fin M => (idx (ix2 j 0)).toInt = (i.val : Int)), upd (ix2 j g) := by
  simp only [Host.scatterAdd, Ideal.hostScatterAdd_def, Ideal.hostScatterAdd]
  congr 1
  rw [Finset.sum_filter, Finset.sum_filter, sum_idx2]
  refine Finset.sum_congr rfl fun j _ => ?_
  rw [Finset.sum_congr rfl fun f _ => if_congr (rowScatter_resultIdx wf idx j f i g) rfl rfl]
  by_cases h : (idx (ix2 j 0)).toInt = (i.val : Int)
  · simp only [h, true_and, if_true]
    rw [Finset.sum_ite_eq']
    simp only [Finset.mem_univ, if_true]
  · simp only [h, false_and, if_false, Finset.sum_const_zero]

end Sums

end Idealize.ShloMosaic.GatherScatter

end
-- ==== Proof.LibPairScatterRows.lean ====
/-
  STABLEHLO'S SCATTER READ AT AN INDEX, for the dimension numbers that a row-wise indexed update of a matrix lowers to.

  `x.at[arange(B)[:, None], idx].add(v)` of a matrix `x : [N, N']` with `idx, v : [B, P]` is a `stablehlo.scatter`
  with an `add` body whose scatter indices are the pairs `[B, P, 2]` (at `(b, p)` the pair `(b, idx[b, p])`), whose
  updates are `[B, P]`, and whose dimension numbers are update_window_dims `[]`, inserted_window_dims `[0, 1]`,
  scatter_dims_to_operand_dims `[0, 1]`, index_vector_dim 2. This file builds that record from the sizes
  (`pairRowsScatterDims`) and reads the operation at an index:

  * update `(b, p)` lands on operand element `(i, i')` exactly when its index pair `(idx[b, p, 0], idx[b, p, 1])`, read
    SIGNED and NOT clamped, is `(i, i')` (`pairRowsScatter_resultIdx`); an update whose pair is outside the operand
    lands nowhere;
  * so, over the extended reals, the accumulating scatter's result element at `(i, i')` is the operand's plus the sum
    over `(b, p)` of the updates `v[b, p]` whose index pair is `(i, i')` (`pairRowsScatterAdd_apply`).
-/
import Idealize.ShloMosaic.PureOps.Ideal
import Idealize.ShloMosaic.Lib.ValueIdx
import proofs.«414116_j1726576856659_2_alg».proof.Proof.LibGatherScatter

noncomputable section

open scoped BigOperators

namespace Idealize.ShloMosaic.GatherScatter

open Idealize.ShloMosaic Idealize.ShloMosaic.ValueIdx

/-! ## Scalars scattered into a matrix by a matrix of index pairs -/

section PairRowsScatter

/-- Those dimension numbers for an operand `[N, N']`, scatter indices `[B, P, 2]` and updates `[B, P]`; their
    conditions `wf` are decided on a program's literal shapes. -/
abbrev pairRowsScatterDims (N N' B P : Nat)
    (wf : ScatterDims.WF ⟨2, ![N, N']⟩ ⟨3, ![B, P, 2]⟩ ⟨2, ![B, P]⟩ [] [0, 1] [0, 1] 2) :
    ScatterDims ⟨2, ![N, N']⟩ ⟨3, ![B, P, 2]⟩ ⟨2, ![B, P]⟩ where
  updateWindowDims := []
  insertedWindowDims := [0, 1]
  scatterDimsToOperandDims := [0, 1]
  indexVectorDim := 2
  wf := wf

variable {N N' B P w : Nat} (wf : ScatterDims.WF ⟨2, ![N, N']⟩ ⟨3, ![B, P, 2]⟩ ⟨2, ![B, P]⟩ [] [0, 1] [0, 1] 2)

/-- Update `(b, p)`'s window starts, on the operand's row axis, at the index `idx[b, p, 0]` read signed. -/
theorem pairRowsScatter_start0 (idx : IVec ⟨3, ![B, P, 2]⟩ w) (b : Fin B) (p : Fin P) :
    (pairRowsScatterDims N N' B P wf).start (ix2 b p) idx 0 = (idx (ix3 b p 0)).toInt := by
  have hmem : (0 : Fin 2) ∈ (pairRowsScatterDims N N' B P wf).scatterDimsToOperandDims :=
    (by decide : (0 : Fin 2) ∈ ([0, 1] : List (Fin 2)))
  have hsi : (pairRowsScatterDims N N' B P wf).siIdx (ix2 b p)
      ⟨List.idxOf (0 : Fin 2) (pairRowsScatterDims N N' B P wf).scatterDimsToOperandDims,
        List.idxOf_lt_length_iff.2 hmem⟩ = ix3 b p 0 := by
    funext a; refine Fin.ext ?_
    match a with
    | ⟨0, _⟩ => rfl
    | ⟨1, _⟩ => rfl
    | ⟨2, _⟩ => rfl
  unfold ScatterDims.start
  rw [dif_pos hmem, hsi]

/-- Update `(b, p)`'s window starts, on the operand's column axis, at the index `idx[b, p, 1]` read signed. -/
theorem pairRowsScatter_start1 (idx : IVec ⟨3, ![B, P, 2]⟩ w) (b : Fin B) (p : Fin P) :
    (pairRowsScatterDims N N' B P wf).start (ix2 b p) idx 1 = (idx (ix3 b p 1)).toInt := by
  have hmem : (1 : Fin 2) ∈ (pairRowsScatterDims N N' B P wf).scatterDimsToOperandDims :=
    (by decide : (1 : Fin 2) ∈ ([0, 1] : List (Fin 2)))
  have hsi : (pairRowsScatterDims N N' B P wf).siIdx (ix2 b p)
      ⟨List.idxOf (1 : Fin 2) (pairRowsScatterDims N N' B P wf).scatterDimsToOperandDims,
        List.idxOf_lt_length_iff.2 hmem⟩ = ix3 b p 1 := by
    funext a; refine Fin.ext ?_
    match a with
    | ⟨0, _⟩ => rfl
    | ⟨1, _⟩ => rfl
    | ⟨2, _⟩ => rfl
  unfold ScatterDims.start
  rw [dif_pos hmem, hsi]

/-- The updates are scalars: the window coordinate is `0` on both axes. -/
theorem pairRowsScatter_window (j : (⟨2, ![B, P]⟩ : Shape).Idx) (a : Fin (⟨2, ![N, N']⟩ : Shape).rank) :
    (pairRowsScatterDims N N' B P wf).window j a = 0 := by
  unfold ScatterDims.window
  rw [dif_neg (not_mem_kept (by
    match a with
    | ⟨0, _⟩ => exact (by decide : (0 : Fin 2) ∈ ([0, 1] : List (Fin 2)))
    | ⟨1, _⟩ => exact (by decide : (1 : Fin 2) ∈ ([0, 1] : List (Fin 2)))))]

/-- UPDATE `(b, p)` LANDS ON ELEMENT `(i, i')` exactly when its index pair `(idx[b, p, 0], idx[b, p, 1])`, read
    signed, is `(i, i')`. -/
theorem pairRowsScatter_resultIdx (idx : IVec ⟨3, ![B, P, 2]⟩ w) (b : Fin B) (p : Fin P) (i : Fin N) (i' : Fin N') :
    (pairRowsScatterDims N N' B P wf).resultIdx? (ix2 b p) idx = some (ix2 i i') ↔
      ((idx (ix3 b p 0)).toInt = (i.val : Int) ∧ (idx (ix3 b p 1)).toInt = (i'.val : Int)) := by
  rw [resultIdx?_eq_some_iff]
  constructor
  · intro H
    have h0 := H 0
    have h1 := H 1
    rw [pairRowsScatter_start0, pairRowsScatter_window, Nat.cast_zero, add_zero] at h0
    rw [pairRowsScatter_start1, pairRowsScatter_window, Nat.cast_zero, add_zero] at h1
    exact ⟨h0, h1⟩
  · intro H a
    match a with
    | ⟨0, _⟩ =>
      show (pairRowsScatterDims N N' B P wf).start (ix2 b p) idx 0
        + ((pairRowsScatterDims N N' B P wf).window (ix2 b p) 0 : Int) = _
      rw [pairRowsScatter_start0, pairRowsScatter_window, Nat.cast_zero, add_zero]
      exact H.1
    | ⟨1, _⟩ =>
      show (pairRowsScatterDims N N' B P wf).start (ix2 b p) idx 1
        + ((pairRowsScatterDims N N' B P wf).window (ix2 b p) 1 : Int) = _
      rw [pairRowsScatter_start1, pairRowsScatter_window, Nat.cast_zero, add_zero]
      exact H.2

end PairRowsScatter

/-! ## The accumulating scatter over the extended reals -/

section Sums
variable {φ : FTy}

/-- SCALARS ACCUMULATED INTO A MATRIX BY A MATRIX OF INDEX PAIRS, read at `(i, i')`: the operand's element plus the
    sum over `(b, p)` of the updates whose index pair `(idx[b, p, 0], idx[b, p, 1])`, read signed, is `(i, i')`. -/
theorem pairRowsScatterAdd_apply {N N' B P w : Nat}
    (wf : ScatterDims.WF ⟨2, ![N, N']⟩ ⟨3, ![B, P, 2]⟩ ⟨2, ![B, P]⟩ [] [0, 1] [0, 1] 2)
    (x : (⟨2, ![N, N']⟩ : Shape).Idx → EReal) (idx : IVec ⟨3, ![B, P, 2]⟩ w)
    (upd : (⟨2, ![B, P]⟩ : Shape).Idx → EReal) (i : Fin N) (i' : Fin N') :
    Host.scatterAdd (F := Ideal) (φ := φ) (pairRowsScatterDims N N' B P wf) x idx upd (ix2 i i')
      = x (ix2 i i') + ∑ b : Fin B, ∑ p : Fin P,
          if (idx (ix3 b p 0)).toInt = (i.val : Int) ∧ (idx (ix3 b p 1)).toInt = (i'.val : Int)
            then upd (ix2 b p) else 0 := by
  simp only [Host.scatterAdd, Ideal.hostScatterAdd_def, Ideal.hostScatterAdd]
  congr 1
  rw [Finset.sum_filter, sum_idx2]
  refine Finset.sum_congr rfl fun b _ => Finset.sum_congr rfl fun p _ => ?_
  exact if_congr (pairRowsScatter_resultIdx wf idx b p i i') rfl rfl

end Sums

end Idealize.ShloMosaic.GatherScatter

end
-- ==== Proof.DenseTerm.lean ====
/-
  The host lines that spread a weight table into its dense matrix, as one function, read at an index.

  The index words are clamped to [0, 1023], paired with their output column number (an iota), both passed through the
  wrap-around of negative indices, and each weight is ACCUMULATED into the zero matrix at its pair. For index words in
  range the clamp and the wrap-around change nothing, so entry `(i, o)` of the result is the sum of the weights
  `w[p, o]` of the taps `p` whose word `fov[p, o]` is `i`: `dense`.
-/
import proofs.«414116_j1726576856659_2_alg».proof.Proof.Spec
import proofs.«414116_j1726576856659_2_alg».proof.Proof.LibPairScatterRows
import proofs.«414116_j1726576856659_2_alg».proof.Proof.Gen.KernelIdeal
import Idealize.ShloMosaic.Lib.Pipeline.Value
import Idealize.ShloMosaic.Lib.StableHlo.Predicate
import Idealize.ShloMosaic.PureOps.Ideal.Laws

noncomputable section

open scoped BigOperators

namespace Cert.Resize

open Idealize.ShloMosaic Idealize.ShloMosaic.ValueIdx
open Cert.KernelIdeal Cert.KernelIdeal.Gen

/-- The index words clamped to the image's rows. -/
def clipTerm (fov : IVec S8x512 32) : IVec S8x512 32 :=
  minsi (broadcastInDim S8x512 ![] bcast_S_S8x512 (constantI S_ 32 1023#32))
    (maxsi (broadcastInDim S8x512 ![] bcast_S_S8x512 (constantI S_ 32 0#32)) fov)

/-- A table of index words through the wrap-around of negative indices on an axis of extent `n`. -/
def wrapTerm (n : BitVec 32) (t : IVec S8x512 32) : IVec S8x512 32 :=
  select (cmpi .slt t (broadcastInDim S8x512 ![] bcast_S_S8x512 (constantI S_ 32 0#32)))
    (addi t (broadcastInDim S8x512 ![] bcast_S_S8x512 (constantI S_ 32 n))) t

/-- The output column number of every tap. -/
def colTerm : IVec S8x512 32 :=
  broadcastInDim S8x512 ![0, 1] bcast_S1x512_S8x512_0_1 (broadcastInDim S1x512 ![1] bcast_S512_S1x512_1 (iotaInDim S512 32 0))

/-- THE HOST LINES as one function of an index table and a weight table: the weights accumulated into the zero matrix at
    the pairs (row word, column number). -/
def denseTerm (fov : IVec S8x512 32) (w : FVec Ideal S8x512x1x1x1 .f32) : FVec Ideal S1024x512 .f32 :=
  Host.scatterAdd scatter_S1024x512_S8x512x2_S8x512_n_01_01_2
    (broadcastInDim S1024x512 ![] bcast_S_S1024x512 (constant S_ .f32 0x00000000#32))
    (concatenate S8x512x2 2
      [⟨S8x512x1, broadcastInDim S8x512x1 ![0, 1] bcast_S8x512_S8x512x1_0_1 (wrapTerm 1024#32 (clipTerm fov))⟩,
       ⟨S8x512x1, broadcastInDim S8x512x1 ![0, 1] bcast_S8x512_S8x512x1_0_1 (wrapTerm 512#32 colTerm)⟩]
      concatenates_S8x512x1_S8x512x1_S8x512x2_d2)
    (shapeCast S8x512 w shapeCasts_S8x512x1x1x1_S8x512)

/-! ## Words in range: the clamp and the wrap-around change nothing -/

/-- A word below 2³¹ is not negative. -/
private theorem slt_zero_false (w : BitVec 32) (hw : w.toNat < 2 ^ 31) : w.slt 0#32 = false := by
  have hti : w.toInt = w.toNat := StableHlo.Predicate.toInt_eq_toNat_of_lt hw
  have h0 : (0#32 : BitVec 32).toInt = 0 := by decide
  simp only [BitVec.slt, hti, h0, decide_eq_false_iff_not]
  omega

/-- The signed maximum of zero and a non-negative word is the word. -/
private theorem maxsi_zero_left (w : BitVec 32) (hw : w.toNat < 2 ^ 31) : IntOp.maxsi 0#32 w = w := by
  unfold IntOp.maxsi
  rw [slt_zero_false w hw]; rfl

/-- The signed minimum of 1023 and a word in [0, 1023] is the word. -/
private theorem minsi_hi_left (w : BitVec 32) (hw : w.toNat < 1024) : IntOp.minsi 1023#32 w = w := by
  have hti : w.toInt = w.toNat := StableHlo.Predicate.toInt_eq_toNat_of_lt (by omega)
  have h0 : (1023#32 : BitVec 32).toInt = 1023 := by decide
  unfold IntOp.minsi
  have : (1023#32 : BitVec 32).slt w = false := by
    simp only [BitVec.slt, hti, h0, decide_eq_false_iff_not]
    omega
  rw [this]; rfl

/-- A selection on "the word is negative" takes its second branch at a non-negative word. -/
private theorem select_slt_zero {α : Type} (w : BitVec 32) (hw : w.toNat < 2 ^ 31) (a b : α) :
    Scalar.select (IntOp.cmpi .slt w 0#32) a b = b := by
  unfold IntOp.cmpi Scalar.select
  simp only [slt_zero_false w hw]
  rfl

/-! ## The tables read at an index -/

/-- A constant word broadcast over the table reads the word everywhere. -/
private theorem bcastConst_apply (c : BitVec 32) (j : S8x512.Idx) :
    broadcastInDim S8x512 ![] bcast_S_S8x512 (constantI S_ 32 c) j = c :=
  broadcastInDim_apply _ bcast_S_S8x512 (constantI S_ 32 c) j (fun a => a.elim0) (fun a => a.elim0)

/-- The wrap-around leaves a non-negative word as it is. -/
private theorem wrapTerm_apply (n : BitVec 32) (t : IVec S8x512 32) (j : S8x512.Idx) (h : (t j).toNat < 2 ^ 31) :
    wrapTerm n t j = t j := by
  show Scalar.select (IntOp.cmpi .slt (t j) (broadcastInDim S8x512 ![] bcast_S_S8x512 (constantI S_ 32 0#32) j)) _ (t j) = t j
  rw [bcastConst_apply]
  exact select_slt_zero _ h _ _

/-- The clamp leaves a word in range as it is. -/
private theorem clipTerm_apply (fov : IVec S8x512 32) (j : S8x512.Idx) (h : (fov j).toNat < 1024) :
    clipTerm fov j = fov j := by
  show IntOp.minsi (broadcastInDim S8x512 ![] bcast_S_S8x512 (constantI S_ 32 1023#32) j)
    (IntOp.maxsi (broadcastInDim S8x512 ![] bcast_S_S8x512 (constantI S_ 32 0#32) j) (fov j)) = fov j
  rw [bcastConst_apply, bcastConst_apply, maxsi_zero_left _ (by omega), minsi_hi_left _ h]

/-- The column-number table at tap `p`, output `o`, is the word of `o`. -/
private theorem colTerm_apply (p : Fin 8) (o : Fin 512) : colTerm (ix2 p o) = BitVec.ofNat 32 o.val := by
  unfold colTerm
  refine (broadcastInDim_apply _ bcast_S1x512_S8x512_0_1 _ (ix2 p o) (ix2 (0 : Fin 1) o) (fun a => match a with
    | ⟨0, _⟩ => rfl
    | ⟨1, _⟩ => by show o.val = if (512 : Nat) = 1 then 0 else o.val; rw [if_neg (by decide)])).trans ?_
  refine (broadcastInDim_apply _ bcast_S512_S1x512_1 _ (ix2 (0 : Fin 1) o) (ix1 o) (fun a => match a with
    | ⟨0, _⟩ => by show o.val = if (512 : Nat) = 1 then 0 else o.val; rw [if_neg (by decide)])).trans ?_
  rfl

/-! ## The index pairs and the updates read at an index -/

/-- A table laid out with a trailing unit axis reads, at `(p, o, 0)`, the table at `(p, o)`. -/
private theorem bcastUnit_apply (t : IVec S8x512 32) (p : Fin 8) (o : Fin 512) :
    broadcastInDim S8x512x1 ![0, 1] bcast_S8x512_S8x512x1_0_1 t (ix3 p o (0 : Fin 1)) = t (ix2 p o) :=
  broadcastInDim_apply _ bcast_S8x512_S8x512x1_0_1 t (ix3 p o (0 : Fin 1)) (ix2 p o) (fun a => match a with
    | ⟨0, _⟩ => by show p.val = if (8 : Nat) = 1 then 0 else p.val; rw [if_neg (by decide)]
    | ⟨1, _⟩ => by show o.val = if (512 : Nat) = 1 then 0 else o.val; rw [if_neg (by decide)])

/-- The index pairs: component 0 of the pair at `(p, o)` is the first table at `(p, o)`. -/
private theorem pair_apply_zero (A B : IVec S8x512 32) (p : Fin 8) (o : Fin 512) :
    concatenate S8x512x2 2
      [⟨S8x512x1, broadcastInDim S8x512x1 ![0, 1] bcast_S8x512_S8x512x1_0_1 A⟩,
       ⟨S8x512x1, broadcastInDim S8x512x1 ![0, 1] bcast_S8x512_S8x512x1_0_1 B⟩]
      concatenates_S8x512x1_S8x512x1_S8x512x2_d2 (ix3 p o (0 : Fin 2)) = A (ix2 p o) := by
  refine (concatenate_pair_apply_left (t := S8x512x2) (s₁ := S8x512x1) (s₂ := S8x512x1) (2 : Fin 3) _ _
    concatenates_S8x512x1_S8x512x1_S8x512x2_d2 (ix3 p o (0 : Fin 2)) rfl
    (ix3 p o (0 : Fin 1)) (fun b => match b with
      | ⟨0, _⟩ => rfl
      | ⟨1, _⟩ => rfl
      | ⟨2, _⟩ => rfl)).trans ?_
  exact bcastUnit_apply A p o

/-- Component 1 of the pair at `(p, o)` is the second table at `(p, o)`. -/
private theorem pair_apply_one (A B : IVec S8x512 32) (p : Fin 8) (o : Fin 512) :
    concatenate S8x512x2 2
      [⟨S8x512x1, broadcastInDim S8x512x1 ![0, 1] bcast_S8x512_S8x512x1_0_1 A⟩,
       ⟨S8x512x1, broadcastInDim S8x512x1 ![0, 1] bcast_S8x512_S8x512x1_0_1 B⟩]
      concatenates_S8x512x1_S8x512x1_S8x512x2_d2 (ix3 p o (1 : Fin 2)) = B (ix2 p o) := by
  refine (concatenate_pair_apply_right (t := S8x512x2) (s₁ := S8x512x1) (s₂ := S8x512x1) (2 : Fin 3) _ _
    concatenates_S8x512x1_S8x512x1_S8x512x2_d2 (ix3 p o (1 : Fin 2)) rfl rfl
    (ix3 p o (0 : Fin 1)) (fun b hb => match b, hb with
      | ⟨0, _⟩, _ => rfl
      | ⟨1, _⟩, _ => rfl
      | ⟨2, _⟩, hb => absurd rfl hb) rfl).trans ?_
  exact bcastUnit_apply B p o

/-- The weight table with its three unit axes dropped reads, at `(p, o)`, the table at `(p, o, 0, 0, 0)`. -/
private theorem weights_apply (w : FVec Ideal S8x512x1x1x1 .f32) (p : Fin 8) (o : Fin 512) :
    shapeCast S8x512 w shapeCasts_S8x512x1x1x1_S8x512 (ix2 p o) = w (ix5 p o 0 0 0) :=
  shapeCast_apply w shapeCasts_S8x512x1x1x1_S8x512 (ix2 p o) (ix5 p o 0 0 0) (by
    rw [Shape.rowMajor_val_two, Shape.rowMajor_val_five]
    show (((p.val * 512 + o.val) * 1 + 0) * 1 + 0) * 1 + 0 = p.val * 512 + o.val
    omega)

/-! ## The accumulated matrix -/

/-- READ AT `(i, o)`, for index words in range: the dense matrix of the specification. -/
theorem denseTerm_apply (fov : IVec S8x512 32) (w : FVec Ideal S8x512x1x1x1 .f32)
    (hf : ∀ i, (fov i).toNat < 1024) (i : Fin 1024) (o : Fin 512) :
    denseTerm fov w (ix2 i o) = dense fov w i o := by
  -- the row word of tap `p`, output `o'`, read signed, is the index word's value
  have hrow : ∀ (p : Fin 8) (o' : Fin 512),
      (wrapTerm 1024#32 (clipTerm fov) (ix2 p o')).toInt = ((fov (ix2 p o')).toNat : Int) := by
    intro p o'
    have hlt := hf (ix2 p o')
    have h1 : clipTerm fov (ix2 p o') = fov (ix2 p o') := clipTerm_apply fov _ hlt
    rw [wrapTerm_apply _ _ _ (by rw [h1]; omega), h1]
    exact StableHlo.Predicate.toInt_eq_toNat_of_lt (by omega)
  -- the column word, read signed, is the output's number
  have hcol : ∀ (p : Fin 8) (o' : Fin 512), (wrapTerm 512#32 colTerm (ix2 p o')).toInt = (o'.val : Int) := by
    intro p o'
    have ho := o'.isLt
    have h1 := colTerm_apply p o'
    have hlt : (BitVec.ofNat 32 o'.val).toNat < 2 ^ 31 := by rw [BitVec.toNat_ofNat]; omega
    rw [wrapTerm_apply _ _ _ (by rw [h1]; exact hlt), h1]
    exact StableHlo.Predicate.toInt_ofNat_small _ (by omega)
  -- the operand is the zero matrix
  have hzero : broadcastInDim S1024x512 ![] bcast_S_S1024x512 (constant (F := Ideal) S_ .f32 0x00000000#32) (ix2 i o) = 0 :=
    (broadcastInDim_apply _ bcast_S_S1024x512 _ (ix2 i o) (fun a => a.elim0) (fun a => a.elim0)).trans Ideal.ofBits_zero_f32
  unfold denseTerm
  refine (Idealize.ShloMosaic.GatherScatter.pairRowsScatterAdd_apply (φ := .f32)
    scatter_S1024x512_S8x512x2_S8x512_n_01_01_2_wf _ _ _ i o).trans ?_
  rw [hzero, zero_add]
  unfold dense
  refine Finset.sum_congr rfl fun p _ => ?_
  -- of the 512 outputs only `o` itself has column word `o`
  trans ∑ o' : Fin 512, if o' = o then (if (fov (ix2 p o')).toNat = i.val then w (ix5 p o' 0 0 0) else 0) else 0
  · refine Finset.sum_congr rfl fun o' _ => ?_
    rw [pair_apply_zero, pair_apply_one, hrow, hcol, weights_apply]
    by_cases ho : o' = o
    · subst ho
      rw [if_pos rfl]
      refine if_congr ⟨fun h => ?_, fun h => ⟨?_, rfl⟩⟩ rfl rfl
      · exact_mod_cast h.1
      · exact_mod_cast h
    · rw [if_neg ho, if_neg]
      rintro ⟨_, h⟩
      exact ho (Fin.ext (by exact_mod_cast h))
  · rw [Finset.sum_ite_eq' Finset.univ o, if_pos (Finset.mem_univ o)]
    refine if_congr ?_ rfl rfl
    -- a word in range is its own remainder
    rw [Fin.ext_iff]
    show _ ↔ (fov (ix2 p o)).toNat % 1024 = i.val
    rw [Nat.mod_eq_of_lt (hf _)]

end Cert.Resize

end
-- ==== Proof.KernelHost.lean ====
/-
  What the host lines before the kernel's region leave in the region's five input arrays, read at an index: the image
  as 48 planes, and each weight table spread into its dense matrix (`dense`), high part and low part.
-/
import proofs.«414116_j1726576856659_2_alg».proof.Proof.Spec
import proofs.«414116_j1726576856659_2_alg».proof.Proof.DenseTerm
import proofs.«414116_j1726576856659_2_alg».proof.Proof.Gen.KernelIdeal.Frame
import Idealize.ShloMosaic.Lib.Pipeline.Value
import Idealize.ShloMosaic.Lib.StableHlo.Run
import Idealize.ShloMosaic.Lib.StableHlo.Predicate

noncomputable section

open scoped BigOperators

namespace Cert.Resize

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The kernel program's five arguments on core `c`. -/
abbrev kX (c : Dev nD) : SIn.Idx → EReal := m ((c.tc : Thread nD τ).loc main_arg0)
abbrev kW0 (c : Dev nD) : SW.Idx → EReal := m ((c.tc : Thread nD τ).loc main_arg1)
abbrev kW1 (c : Dev nD) : SW.Idx → EReal := m ((c.tc : Thread nD τ).loc main_arg2)
abbrev kF0 (c : Dev nD) : IVec SFov 32 := m ((c.tc : Thread nD τ).loc main_arg3)
abbrev kF1 (c : Dev nD) : IVec SFov 32 := m ((c.tc : Thread nD τ).loc main_arg4)

/-! ## The terms the last host lines build

After the two dense matrices the host lines split each into a high part (the matrix rounded to the shorter format) and
a low part (the matrix minus its high part, rounded), the row filter's matrix transposed first. -/

/-- The high part of a matrix: the matrix rounded to the shorter format. -/
def hiTerm {s : Shape} (a : FVec Ideal s .f32) : FVec Ideal s .bf16 := truncf .bf16 a bitsLt_bf16_f32

/-- Over the extended reals a change of format is the identity. -/
theorem hiTerm_apply {s : Shape} (a : FVec Ideal s .f32) (i : s.Idx) : hiTerm a i = a i := rfl

/-- The low part of a matrix: the matrix minus its high part, rounded. -/
def loTerm {s : Shape} (a : FVec Ideal s .f32) : FVec Ideal s .bf16 :=
  truncf .bf16 (subf a (extf .f32 (truncf .bf16 a bitsLt_bf16_f32) bitsLt_bf16_f32)) bitsLt_bf16_f32

/-- The low part at an index is the entry minus itself. -/
theorem loTerm_apply {s : Shape} (a : FVec Ideal s .f32) (i : s.Idx) : loTerm a i = a i - a i := rfl

/-- The row filter's matrix, transposed. -/
def trTerm (a : FVec Ideal S1024x512 .f32) : FVec Ideal S512x1024 .f32 :=
  transpose S512x1024 [1, 0] a transposes_S1024x512_S512x1024_1_0

/-- The transpose reads `(o, i)` at `(i, o)`. -/
theorem trTerm_apply (a : FVec Ideal S1024x512 .f32) (o : Fin 512) (i : Fin 1024) : trTerm a (ix2 o i) = a (ix2 i o) :=
  transpose_apply [1, 0] a transposes_S1024x512_S512x1024_1_0 (ix2 o i) (ix2 i o) (fun b => match b with
    | ⟨0, _⟩ => rfl
    | ⟨1, _⟩ => rfl)

/-! ## The region's input arrays, whole

Each is the fold of the host lines over the launch memory, read at the array's buffer: every line's result at its own
buffer is its function's value, at any other buffer what was there; what is left is the lines' composed term over the
program's arguments. -/

set_option maxHeartbeats 4000000 in
/-- The host lines leave the row filter's dense matrix in `main_v19` -/
theorem v19_eq (c : Dev nD) : (V m c main_v19 : S1024x512.Idx → EReal) = denseTerm (kF0 m c) (kW0 m c) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  unfold denseTerm wrapTerm clipTerm colTerm
  rfl

set_option maxHeartbeats 4000000 in
/-- and the column filter's in `main_v39`. -/
theorem v39_eq (c : Dev nD) : (V m c main_v39 : S1024x512.Idx → EReal) = denseTerm (kF1 m c) (kW1 m c) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  unfold denseTerm wrapTerm clipTerm colTerm
  rfl

set_option maxHeartbeats 4000000 in
/-- Window 1's array is the row filter's dense matrix transposed, its high part; -/
theorem v41_eq (c : Dev nD) :
    (V m c main_v41 : FVec Ideal S512x1024 .bf16) = hiTerm (trTerm (denseTerm (kF0 m c) (kW0 m c))) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  unfold hiTerm trTerm denseTerm wrapTerm clipTerm colTerm
  rfl

set_option maxHeartbeats 4000000 in
/-- window 2's array its low part; -/
theorem v44_eq (c : Dev nD) :
    (V m c main_v44 : FVec Ideal S512x1024 .bf16) = loTerm (trTerm (denseTerm (kF0 m c) (kW0 m c))) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  unfold loTerm trTerm denseTerm wrapTerm clipTerm colTerm
  rfl

set_option maxHeartbeats 4000000 in
/-- window 3's array the column filter's dense matrix, its high part; -/
theorem v45_eq (c : Dev nD) :
    (V m c main_v45 : FVec Ideal S1024x512 .bf16) = hiTerm (denseTerm (kF1 m c) (kW1 m c)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  unfold hiTerm denseTerm wrapTerm clipTerm colTerm
  rfl

set_option maxHeartbeats 4000000 in
/-- window 4's array its low part; -/
theorem v48_eq (c : Dev nD) :
    (V m c main_v48 : FVec Ideal S1024x512 .bf16) = loTerm (denseTerm (kF1 m c) (kW1 m c)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  unfold loTerm denseTerm wrapTerm clipTerm colTerm
  rfl

set_option maxHeartbeats 4000000 in
/-- window 0's array the image batch with its two leading axes merged. -/
theorem v49_eq (c : Dev nD) : (V m c main_v49 : S48x1024x1024.Idx → EReal)
    = shapeCast S48x1024x1024 (kX m c) shapeCasts_S16x3x1024x1024_S48x1024x1024 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

/-! ## Read at an index -/

/-- Window 0's array: plane `n` of the 48 is image `n / 3`, channel `n % 3`. -/
theorem planes_apply (c : Dev nD) (n : Fin 48) (i j : Fin 1024) :
    (V m c main_v49 : S48x1024x1024.Idx → EReal) (ix3 n i j)
      = kX m c (ix4 ⟨n.val / 3, by omega⟩ ⟨n.val % 3, Nat.mod_lt _ (by decide)⟩ i j) := by
  rw [v49_eq]
  -- both indices sit at the row-major position ((n / 3) * 3 + n % 3) * 1024 * 1024 + i * 1024 + j
  exact shapeCast_apply (kX m c) shapeCasts_S16x3x1024x1024_S48x1024x1024 (ix3 n i j) _ (by
    rw [Shape.rowMajor_val_four, Shape.rowMajor_val_three]
    show ((n.val / 3 * 3 + n.val % 3) * 1024 + i.val) * 1024 + j.val = (n.val * 1024 + i.val) * 1024 + j.val
    omega)

/-- Window 1's array: the row filter's dense matrix, transposed. -/
theorem whi0_apply (c : Dev nD) (hf : ∀ i, (kF0 m c i).toNat < 1024) (o : Fin 512) (i : Fin 1024) :
    (V m c main_v41 : S512x1024.Idx → EReal) (ix2 o i) = dense (kF0 m c) (kW0 m c) i o := by
  rw [v41_eq, hiTerm_apply, trTerm_apply]
  exact denseTerm_apply (kF0 m c) (kW0 m c) hf i o

/-- Window 2's array: its low part. -/
theorem wlo0_apply (c : Dev nD) (hf : ∀ i, (kF0 m c i).toNat < 1024) (o : Fin 512) (i : Fin 1024) :
    (V m c main_v44 : S512x1024.Idx → EReal) (ix2 o i)
      = dense (kF0 m c) (kW0 m c) i o - dense (kF0 m c) (kW0 m c) i o := by
  rw [v44_eq, loTerm_apply, trTerm_apply, denseTerm_apply (kF0 m c) (kW0 m c) hf i o]

/-- Window 3's array: the column filter's dense matrix. -/
theorem whi1_apply (c : Dev nD) (hf : ∀ i, (kF1 m c i).toNat < 1024) (j : Fin 1024) (o : Fin 512) :
    (V m c main_v45 : S1024x512.Idx → EReal) (ix2 j o) = dense (kF1 m c) (kW1 m c) j o := by
  rw [v45_eq, hiTerm_apply]
  exact denseTerm_apply (kF1 m c) (kW1 m c) hf j o

/-- Window 4's array: its low part. -/
theorem wlo1_apply (c : Dev nD) (hf : ∀ i, (kF1 m c i).toNat < 1024) (j : Fin 1024) (o : Fin 512) :
    (V m c main_v48 : S1024x512.Idx → EReal) (ix2 j o)
      = dense (kF1 m c) (kW1 m c) j o - dense (kF1 m c) (kW1 m c) j o := by
  rw [v48_eq, loTerm_apply, denseTerm_apply (kF1 m c) (kW1 m c) hf j o]

end Cert.Resize

end
-- ==== Proof.KernelValue.lean ====
/-
  The kernel program's result, read: after the region its output array holds, plane by plane, `plane` of the five
  input arrays as the region finds them (each grid step writes two planes; the 24 steps tile the 48 planes), the
  host line after the region lays the 48 planes out as 16 images of 3 channels, and on admissible inputs that is the
  resized image `G`.
-/
import proofs.«414116_j1726576856659_2_alg».proof.Proof.Spec
import proofs.«414116_j1726576856659_2_alg».proof.Proof.Algebra
import proofs.«414116_j1726576856659_2_alg».proof.Proof.KernelBody
import proofs.«414116_j1726576856659_2_alg».proof.Proof.KernelHost
import proofs.«414116_j1726576856659_2_alg».proof.Proof.Gen.KernelIdeal.Frame
import Idealize.ShloMosaic.Lib.Pipeline.Value
import Idealize.ShloMosaic.Lib.StableHlo.Run

set_option maxRecDepth 16384

noncomputable section

open scoped BigOperators

namespace Cert.Resize

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ)

/-! ## The output array after the region -/

/-- The five input arrays as the region finds them, by coordinates. -/
abbrev aHi0 (c : Dev nD) : Fin 512 → Fin 1024 → EReal := fun o k => (V m c main_v41 : S512x1024.Idx → EReal) (ix2 o k)
abbrev aLo0 (c : Dev nD) : Fin 512 → Fin 1024 → EReal := fun o k => (V m c main_v44 : S512x1024.Idx → EReal) (ix2 o k)
abbrev aHi1 (c : Dev nD) : Fin 1024 → Fin 512 → EReal := fun j o => (V m c main_v45 : S1024x512.Idx → EReal) (ix2 j o)
abbrev aLo1 (c : Dev nD) : Fin 1024 → Fin 512 → EReal := fun j o => (V m c main_v48 : S1024x512.Idx → EReal) (ix2 j o)
abbrev aX (c : Dev nD) (n : Fin 48) : Fin 1024 → Fin 1024 → EReal := fun k j => (V m c main_v49 : S48x1024x1024.Idx → EReal) (ix3 n k j)

/-- What the 48 output planes end holding: plane `n` at `(o1, o2)` is `plane` of the weight arrays and of image plane `n`. -/
def Gk (c : Dev nD) : S48x512x512.Idx → EReal :=
  fun i => plane (aHi0 m c) (aLo0 m c) (aHi1 m c) (aLo1 m c) (aX m c (i 0)) (i 1) (i 2)

/-- The printed index maps, decided over the 24 grid steps: the image and the output move two planes a step, the weight
    blocks are the whole arrays at every step. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- There are 24 grid steps. -/
theorem step_lt (t : Fin cfg0.N) : t.val < 24 := by
  have h : cfg0.N = 24 := N_0
  have := t.isLt
  omega

/-- The image block at step `t`: planes `2t` and `2t + 1`. -/
theorem blk0_read (c : Dev nD) (t : Fin cfg0.N) (s : Fin 2) (k j : Fin 1024) :
    (iblk m c 0 t : S2x1024x1024.Idx → EReal) (ix3 s k j)
      = (V m c main_v49 : S48x1024x1024.Idx → EReal) (ix3 ⟨2 * t.val + s.val, by have := step_lt t; have := s.isLt; omega⟩ k j) := by
  have h : ((cfg0.win 0).blk t).view.emb (ix3 s k j) = ix3 ⟨2 * t.val + s.val, by have := step_lt t; have := s.isLt; omega⟩ k j := by
    obtain ⟨e0, e1, e2, -⟩ := idx_facts t
    funext a; apply Fin.ext
    match a with
    | ⟨0, _⟩ => show win0_0.index t (0 : Fin 3) * 2 + 1 * s.val = 2 * t.val + s.val; omega
    | ⟨1, _⟩ => show win0_0.index t (1 : Fin 3) * 1024 + 1 * k.val = k.val; omega
    | ⟨2, _⟩ => show win0_0.index t (2 : Fin 3) * 1024 + 1 * j.val = j.val; omega
  show V m c main_v49 (((cfg0.win 0).blk t).view.emb (ix3 s k j)) = _
  rw [h]

/-- A weight block is its whole array, at every step. -/
theorem blk1_read (c : Dev nD) (t : Fin cfg0.N) (o : Fin 512) (k : Fin 1024) :
    (iblk m c 1 t : S512x1024.Idx → EReal) (ix2 o k) = (V m c main_v41 : S512x1024.Idx → EReal) (ix2 o k) := by
  have h : ((cfg0.win 1).blk t).view.emb (ix2 o k) = ix2 o k := by
    obtain ⟨-, -, -, e0, e1, -⟩ := idx_facts t
    funext a; apply Fin.ext
    match a with
    | ⟨0, _⟩ => show win0_1.index t (0 : Fin 2) * 512 + 1 * o.val = o.val; omega
    | ⟨1, _⟩ => show win0_1.index t (1 : Fin 2) * 1024 + 1 * k.val = k.val; omega
  show V m c main_v41 (((cfg0.win 1).blk t).view.emb (ix2 o k)) = _
  rw [h]

theorem blk2_read (c : Dev nD) (t : Fin cfg0.N) (o : Fin 512) (k : Fin 1024) :
    (iblk m c 2 t : S512x1024.Idx → EReal) (ix2 o k) = (V m c main_v44 : S512x1024.Idx → EReal) (ix2 o k) := by
  have h : ((cfg0.win 2).blk t).view.emb (ix2 o k) = ix2 o k := by
    obtain ⟨-, -, -, -, -, e0, e1, -⟩ := idx_facts t
    funext a; apply Fin.ext
    match a with
    | ⟨0, _⟩ => show win0_2.index t (0 : Fin 2) * 512 + 1 * o.val = o.val; omega
    | ⟨1, _⟩ => show win0_2.index t (1 : Fin 2) * 1024 + 1 * k.val = k.val; omega
  show V m c main_v44 (((cfg0.win 2).blk t).view.emb (ix2 o k)) = _
  rw [h]

theorem blk3_read (c : Dev nD) (t : Fin cfg0.N) (j : Fin 1024) (o : Fin 512) :
    (iblk m c 3 t : S1024x512.Idx → EReal) (ix2 j o) = (V m c main_v45 : S1024x512.Idx → EReal) (ix2 j o) := by
  have h : ((cfg0.win 3).blk t).view.emb (ix2 j o) = ix2 j o := by
    obtain ⟨-, -, -, -, -, -, -, e0, e1, -⟩ := idx_facts t
    funext a; apply Fin.ext
    match a with
    | ⟨0, _⟩ => show win0_3.index t (0 : Fin 2) * 1024 + 1 * j.val = j.val; omega
    | ⟨1, _⟩ => show win0_3.index t (1 : Fin 2) * 512 + 1 * o.val = o.val; omega
  show V m c main_v45 (((cfg0.win 3).blk t).view.emb (ix2 j o)) = _
  rw [h]

theorem blk4_read (c : Dev nD) (t : Fin cfg0.N) (j : Fin 1024) (o : Fin 512) :
    (iblk m c 4 t : S1024x512.Idx → EReal) (ix2 j o) = (V m c main_v48 : S1024x512.Idx → EReal) (ix2 j o) := by
  have h : ((cfg0.win 4).blk t).view.emb (ix2 j o) = ix2 j o := by
    obtain ⟨-, -, -, -, -, -, -, -, -, e0, e1, -⟩ := idx_facts t
    funext a; apply Fin.ext
    match a with
    | ⟨0, _⟩ => show win0_4.index t (0 : Fin 2) * 1024 + 1 * j.val = j.val; omega
    | ⟨1, _⟩ => show win0_4.index t (1 : Fin 2) * 512 + 1 * o.val = o.val; omega
  show V m c main_v48 (((cfg0.win 4).blk t).view.emb (ix2 j o)) = _
  rw [h]

/-- WHAT STEP `t` WRITES BACK is block `t` of `Gk`. -/
theorem flushed_eq (c : Dev nD) (t : Fin cfg0.N) :
    (dats m 0 c).flushed 5 t = ((cfg0.win 5).blk t).view.read (Elt Ideal) (Gk m c) := by
  show (cfg0.win 5).cut (grid0.coords t) ((dats m 0 c).after 5 t) = _
  rw [after0_5]
  funext y
  obtain ⟨s, o1, o2, rfl⟩ : ∃ (s : Fin 2) (o1 o2 : Fin 512), y = ix3 s o1 o2 := ⟨y 0, y 1, y 2, eq_ix3 y⟩
  have hemb : ((cfg0.win 5).blk t).view.emb (ix3 s o1 o2)
      = ix3 (⟨2 * t.val + s.val, by have := step_lt t; have := s.isLt; omega⟩ : Fin 48) o1 o2 := by
    obtain ⟨-, -, -, -, -, -, -, -, -, -, -, e0, e1, e2⟩ := idx_facts t
    funext a; apply Fin.ext
    match a with
    | ⟨0, _⟩ => show win0_5.index t (0 : Fin 3) * 2 + 1 * s.val = 2 * t.val + s.val; omega
    | ⟨1, _⟩ => show win0_5.index t (1 : Fin 3) * 512 + 1 * o1.val = o1.val; omega
    | ⟨2, _⟩ => show win0_5.index t (2 : Fin 3) * 512 + 1 * o2.val = o2.val; omega
  show (out0_5 (F := Ideal) (iblk m c 0 t) (iblk m c 1 t) (iblk m c 2 t) (iblk m c 3 t) (iblk m c 4 t) : S2x512x512.Idx → EReal) (ix3 s o1 o2)
    = Gk m c (((cfg0.win 5).blk t).view.emb (ix3 s o1 o2))
  rw [hemb]
  refine (out0_5_apply (iblk m c 0 t) (iblk m c 1 t) (iblk m c 2 t) (iblk m c 3 t) (iblk m c 4 t) s o1 o2).trans ?_
  show _ = plane (aHi0 m c) (aLo0 m c) (aHi1 m c) (aLo1 m c) (aX m c ⟨2 * t.val + s.val, _⟩) o1 o2
  have h0 : (fun k j => (iblk m c 0 t : S2x1024x1024.Idx → EReal) (ix3 s k j)) = aX m c ⟨2 * t.val + s.val, by have := step_lt t; have := s.isLt; omega⟩ :=
    funext fun k => funext fun j => blk0_read m c t s k j
  have h1 : (fun o k => (iblk m c 1 t : S512x1024.Idx → EReal) (ix2 o k)) = aHi0 m c := funext fun o => funext fun k => blk1_read m c t o k
  have h2 : (fun o k => (iblk m c 2 t : S512x1024.Idx → EReal) (ix2 o k)) = aLo0 m c := funext fun o => funext fun k => blk2_read m c t o k
  have h3 : (fun j o => (iblk m c 3 t : S1024x512.Idx → EReal) (ix2 j o)) = aHi1 m c := funext fun j => funext fun o => blk3_read m c t j o
  have h4 : (fun j o => (iblk m c 4 t : S1024x512.Idx → EReal) (ix2 j o)) = aLo1 m c := funext fun j => funext fun o => blk4_read m c t j o
  rw [h0, h1, h2, h3, h4]

/-- An index of the output array is in step `t`'s block iff each coordinate is in the block's range on its axis. -/
theorem mem_blk (t : Fin cfg0.N) (i : S48x512x512.Idx) :
    i ∈ ((cfg0.win 5).blk t).view.set ↔ ∀ a : Fin 3, win0_5.index t a * S2x512x512.size a ≤ (i a).val ∧ (i a).val < win0_5.index t a * S2x512x512.size a + S2x512x512.size a := by
  show i ∈ ((View.whole main_v50).slice (win0_5.rect t)).set ↔ _
  rw [View.set_slice_whole, Rect.mem_set_unit]
  exact Iff.rfl

/-- Every output plane is written by the step that is half its number. -/
theorem cover (i : S48x512x512.Idx) :
    ∃ t : Fin cfg0.N, (cfg0.win 5).flush t = true ∧ i ∈ ((cfg0.win 5).blk t).view.set := by
  have hi0 : (i 0).val < 48 := (i 0).isLt
  have hi1 : (i 1).val < 512 := (i 1).isLt
  have hi2 : (i 2).val < 512 := (i 2).isLt
  have hN : cfg0.N = 24 := N_0
  refine ⟨⟨(i 0).val / 2, by omega⟩, flush0_5 _, ?_⟩
  rw [mem_blk]
  obtain ⟨-, -, -, -, -, -, -, -, -, -, -, e0, e1, e2⟩ := idx_facts ⟨(i 0).val / 2, by omega⟩
  intro a
  match a with
  | ⟨0, _⟩ => show win0_5.index _ (0 : Fin 3) * 2 ≤ (i 0).val ∧ (i 0).val < win0_5.index _ (0 : Fin 3) * 2 + 2; rw [e0]; show (i 0).val / 2 * 2 ≤ (i 0).val ∧ (i 0).val < (i 0).val / 2 * 2 + 2; omega
  | ⟨1, _⟩ => show win0_5.index _ (1 : Fin 3) * 512 ≤ (i 1).val ∧ (i 1).val < win0_5.index _ (1 : Fin 3) * 512 + 512; rw [e1]; omega
  | ⟨2, _⟩ => show win0_5.index _ (2 : Fin 3) * 512 ≤ (i 2).val ∧ (i 2).val < win0_5.index _ (2 : Fin 3) * 512 + 512; rw [e2]; omega

/-- THE OUTPUT ARRAY after the region is `Gk`. -/
theorem final (c : Dev nD) : (dats m 0 c).arrAt 5 cfg0.N = Gk m c :=
  (dats m 0 c).arrAt_eq_of_cover 5 (Gk m c) (fun t _ => flushed_eq m c t) cover

/-! ## The host line after the region -/

/-- The program's result: the 48 planes of the output array laid out as 16 images of 3 channels. -/
theorem tail_eq (c : Dev nD) :
    Pipeline.afterTail₀ cfgs (dats m) 0 (V0 m) [hostOps1] c main_v51
      = shapeCast S16x3x512x512 ((dats m 0 c).arrAt 5 cfg0.N) shapeCasts_S48x512x512_S16x3x512x512 := by
  unfold Pipeline.afterTail₀
  show StableHlo.after hostOps1 _ (Proc.devRef .tc main_v51) = _
  after_results
  have h5 : Pipeline.withArrays (cfgs 0).spec c (V0 m c) (fun w => (dats m 0 c).arrAt w (cfgs 0).N) (Proc.devRef .tc main_v50)
      = (dats m 0 c).arrAt 5 cfg0.N :=
    Pipeline.withArrays_arr spec0 launch0.win.arr_inj c _ _ 5
  rw [h5]
  rfl

/-- Image `b`, channel `ch` is plane `3 b + ch`. -/
theorem unflatten_apply (A : S48x512x512.Idx → EReal) (b : Fin 16) (ch : Fin 3) (o1 o2 : Fin 512) :
    shapeCast S16x3x512x512 A shapeCasts_S48x512x512_S16x3x512x512 (ix4 b ch o1 o2)
      = A (ix3 ⟨3 * b.val + ch.val, by have := b.isLt; have := ch.isLt; omega⟩ o1 o2) := by
  refine shapeCast_apply A _ _ _ ?_
  rw [Shape.rowMajor_val_three, Shape.rowMajor_val_four]
  show ((3 * b.val + ch.val) * 512 + o1.val) * 512 + o2.val = ((b.val * 3 + ch.val) * 512 + o1.val) * 512 + o2.val
  omega

/-! ## The result on admissible inputs -/

/-- THE KERNEL PROGRAM'S RESULT is the resized image, when the inputs are admissible. -/
theorem kernel_result (c : Dev nD) (hA : Adm (kX m c) (kW0 m c) (kW1 m c) (kF0 m c) (kF1 m c)) :
    Pipeline.afterTail₀ cfgs (dats m) 0 (V0 m) [hostOps1] c main_v51
      = G (kX m c) (kW0 m c) (kW1 m c) (kF0 m c) (kF1 m c) := by
  rw [tail_eq, final]
  funext i
  obtain ⟨b, ch, o1, o2, rfl⟩ : ∃ (b : Fin 16) (ch : Fin 3) (o1 o2 : Fin 512), i = ix4 b ch o1 o2 := ⟨i 0, i 1, i 2, i 3, eq_ix4 i⟩
  rw [unflatten_apply]
  show plane (aHi0 m c) (aLo0 m c) (aHi1 m c) (aLo1 m c) (aX m c ⟨3 * b.val + ch.val, _⟩) o1 o2 = resized _ _ _ _ _ b ch o1 o2
  have h0 : aHi0 m c = fun o k => dense (kF0 m c) (kW0 m c) k o := funext fun o => funext fun k => whi0_apply m c hA.fov0_lt o k
  have h1 : aLo0 m c = fun o k => dense (kF0 m c) (kW0 m c) k o - dense (kF0 m c) (kW0 m c) k o := funext fun o => funext fun k => wlo0_apply m c hA.fov0_lt o k
  have h2 : aHi1 m c = fun j o => dense (kF1 m c) (kW1 m c) j o := funext fun j => funext fun o => whi1_apply m c hA.fov1_lt j o
  have h3 : aLo1 m c = fun j o => dense (kF1 m c) (kW1 m c) j o - dense (kF1 m c) (kW1 m c) j o := funext fun j => funext fun o => wlo1_apply m c hA.fov1_lt j o
  have h4 : aX m c ⟨3 * b.val + ch.val, by have := b.isLt; have := ch.isLt; omega⟩ = fun k j => kX m c (ix4 b ch k j) := by
    funext k j
    refine (planes_apply m c ⟨3 * b.val + ch.val, by have := b.isLt; have := ch.isLt; omega⟩ k j).trans ?_
    refine congrArg (kX m c) ?_
    funext a; apply Fin.ext
    have hb := b.isLt; have hc := ch.isLt
    match a with
    | ⟨0, _⟩ => show (3 * b.val + ch.val) / 3 = b.val; omega
    | ⟨1, _⟩ => show (3 * b.val + ch.val) % 3 = ch.val; omega
    | ⟨2, _⟩ => rfl
    | ⟨3, _⟩ => rfl
  rw [h0, h1, h2, h3, h4]
  exact plane_eq_resized hA b ch o1 o2

end Cert.Resize

end
-- ==== Proof.LibSlabGather.lean ====
/-
  STABLEHLO'S GATHER OF SLABS OF A RANK-4 ARRAY ALONG ITS FIRST AXIS, read at an index.

  `x[idx]` of an array `x : [N, C1, C2, C3]` at an integer table `idx : [A, B]` is a `stablehlo.gather` whose start
  indices are the table as `[A, B, 1]` and whose result is `[A, B, C1, C2, C3]`: offset_dims `[2, 3, 4]`,
  collapsed_slice_dims `[0]`, start_index_map `[0]`, index_vector_dim 2, slice_sizes `[1, C1, C2, C3]`. This file
  builds that record from the sizes (`slabGatherDims`) and reads the operation at an index: the result element
  `(p, o, c, b, j)` is the operand's element `(r, c, b, j)`, where `r` is the start index `idx[p, o, 0]` read SIGNED
  and CLAMPED into `[0, N − 1]` (`slabGather_apply`; `slabGather_apply_of` is the same with `r` named).
-/
import proofs.«414116_j1726576856659_2_alg».proof.Proof.LibGatherScatter
import Idealize.ShloMosaic.PureOps.Ideal
import Idealize.ShloMosaic.Lib.ValueIdx

noncomputable section

namespace Idealize.ShloMosaic.GatherScatter

open Idealize.ShloMosaic Idealize.ShloMosaic.ValueIdx

/-! ## Slabs of a rank-4 array gathered along its first axis by a table of indices -/

section SlabGather
variable {α : Type}

/-- Those dimension numbers for an operand `[N, C1, C2, C3]`, start indices `[A, B, 1]` and result
    `[A, B, C1, C2, C3]`; their conditions `wf` are decided on a program's literal shapes. -/
abbrev slabGatherDims (N C1 C2 C3 A B : Nat)
    (wf : GatherDims.WF ⟨4, ![N, C1, C2, C3]⟩ ⟨3, ![A, B, 1]⟩ ⟨5, ![A, B, C1, C2, C3]⟩ [2, 3, 4] [0] [] [0] [] 2
      ![1, C1, C2, C3]) :
    GatherDims ⟨4, ![N, C1, C2, C3]⟩ ⟨3, ![A, B, 1]⟩ ⟨5, ![A, B, C1, C2, C3]⟩ where
  offsetDims := [2, 3, 4]
  collapsedSliceDims := [0]
  operandBatchingDims := []
  startIndicesBatchingDims := []
  startIndexMap := [0]
  indexVectorDim := 2
  sliceSizes := ![1, C1, C2, C3]
  wf := wf

variable {N C1 C2 C3 A B w : Nat}
  (wf : GatherDims.WF ⟨4, ![N, C1, C2, C3]⟩ ⟨3, ![A, B, 1]⟩ ⟨5, ![A, B, C1, C2, C3]⟩ [2, 3, 4] [0] [] [0] [] 2
    ![1, C1, C2, C3])

/-- Result element `(p, o, c, b, j)`'s slab starts, on the operand's first axis, at the index `idx[p, o, 0]` read
    signed and clamped into `[0, N − 1]`. -/
theorem slabGather_start0 (idx : IVec ⟨3, ![A, B, 1]⟩ w) (p : Fin A) (o : Fin B) (c : Fin C1) (b : Fin C2) (j : Fin C3) :
    (slabGatherDims N C1 C2 C3 A B wf).start (ix5 p o c b j) idx 0 = min (idx (ix3 p o 0)).toInt.toNat (N - 1) := by
  have hmem : (0 : Fin 4) ∈ (slabGatherDims N C1 C2 C3 A B wf).startIndexMap := List.mem_singleton.mpr rfl
  have hsi : (slabGatherDims N C1 C2 C3 A B wf).siIdx (ix5 p o c b j)
      ⟨List.idxOf (0 : Fin 4) (slabGatherDims N C1 C2 C3 A B wf).startIndexMap,
        List.idxOf_lt_length_iff.2 hmem⟩ = ix3 p o 0 := by
    funext a; refine Fin.ext ?_
    match a with
    | ⟨0, _⟩ => rfl
    | ⟨1, _⟩ => rfl
    | ⟨2, _⟩ => rfl
  unfold GatherDims.start
  rw [dif_pos hmem, hsi]
  rfl

/-- The start indices name only the first axis: on the other operand axes the slab starts at `0`. -/
theorem slabGather_start_succ (idx : IVec ⟨3, ![A, B, 1]⟩ w) (y : (⟨5, ![A, B, C1, C2, C3]⟩ : Shape).Idx)
    {a : Fin 4} (ha : a ≠ 0) :
    (slabGatherDims N C1 C2 C3 A B wf).start y idx a = 0 := by
  unfold GatherDims.start
  rw [dif_neg (fun h => ha (List.mem_singleton.mp h))]

/-- The offset coordinate on the operand's second axis is the result's third coordinate. -/
theorem slabGather_offCoord1 (p : Fin A) (o : Fin B) (c : Fin C1) (b : Fin C2) (j : Fin C3) :
    (slabGatherDims N C1 C2 C3 A B wf).offCoord (ix5 p o c b j) 1 = c.val := by
  unfold GatherDims.offCoord
  rw [dif_pos (mem_kept (by decide : (1 : Fin 4) ∉ ([0] ++ [] : List (Fin 4))))]
  rfl

/-- The offset coordinate on the operand's third axis is the result's fourth coordinate. -/
theorem slabGather_offCoord2 (p : Fin A) (o : Fin B) (c : Fin C1) (b : Fin C2) (j : Fin C3) :
    (slabGatherDims N C1 C2 C3 A B wf).offCoord (ix5 p o c b j) 2 = b.val := by
  unfold GatherDims.offCoord
  rw [dif_pos (mem_kept (by decide : (2 : Fin 4) ∉ ([0] ++ [] : List (Fin 4))))]
  rfl

/-- The offset coordinate on the operand's fourth axis is the result's fifth coordinate. -/
theorem slabGather_offCoord3 (p : Fin A) (o : Fin B) (c : Fin C1) (b : Fin C2) (j : Fin C3) :
    (slabGatherDims N C1 C2 C3 A B wf).offCoord (ix5 p o c b j) 3 = j.val := by
  unfold GatherDims.offCoord
  rw [dif_pos (mem_kept (by decide : (3 : Fin 4) ∉ ([0] ++ [] : List (Fin 4))))]
  rfl

/-- THE GATHER READ AT `(p, o, c, b, j)`: element `(c, b, j)` of the operand's slab at the start index `idx[p, o, 0]`,
    read signed and clamped into `[0, N − 1]`. -/
theorem slabGather_apply (hN : 0 < N)
    (wf : GatherDims.WF ⟨4, ![N, C1, C2, C3]⟩ ⟨3, ![A, B, 1]⟩ ⟨5, ![A, B, C1, C2, C3]⟩ [2, 3, 4] [0] [] [0] [] 2
      ![1, C1, C2, C3])
    (x : (⟨4, ![N, C1, C2, C3]⟩ : Shape).Idx → α) (idx : IVec ⟨3, ![A, B, 1]⟩ w)
    (p : Fin A) (o : Fin B) (c : Fin C1) (b : Fin C2) (j : Fin C3) :
    Host.gather (slabGatherDims N C1 C2 C3 A B wf) x idx (ix5 p o c b j)
      = x (ix4 ⟨min (idx (ix3 p o 0)).toInt.toNat (N - 1), by omega⟩ c b j) := by
  unfold Host.gather
  congr 1
  funext a
  refine Fin.ext ?_
  rw [operandIdx_val, batchCoord_of_nil _ rfl, Nat.add_zero]
  match a with
  | ⟨0, _⟩ =>
    show (slabGatherDims N C1 C2 C3 A B wf).start (ix5 p o c b j) idx 0
      + (slabGatherDims N C1 C2 C3 A B wf).offCoord (ix5 p o c b j) 0 = _
    rw [slabGather_start0, offCoord_of_collapsed _ _ (List.mem_singleton.mpr rfl)]
    rfl
  | ⟨1, _⟩ =>
    show (slabGatherDims N C1 C2 C3 A B wf).start (ix5 p o c b j) idx 1
      + (slabGatherDims N C1 C2 C3 A B wf).offCoord (ix5 p o c b j) 1 = _
    rw [slabGather_start_succ wf idx _ (by decide : (1 : Fin 4) ≠ 0), slabGather_offCoord1, Nat.zero_add]
  | ⟨2, _⟩ =>
    show (slabGatherDims N C1 C2 C3 A B wf).start (ix5 p o c b j) idx 2
      + (slabGatherDims N C1 C2 C3 A B wf).offCoord (ix5 p o c b j) 2 = _
    rw [slabGather_start_succ wf idx _ (by decide : (2 : Fin 4) ≠ 0), slabGather_offCoord2, Nat.zero_add]
  | ⟨3, _⟩ =>
    show (slabGatherDims N C1 C2 C3 A B wf).start (ix5 p o c b j) idx 3
      + (slabGatherDims N C1 C2 C3 A B wf).offCoord (ix5 p o c b j) 3 = _
    rw [slabGather_start_succ wf idx _ (by decide : (3 : Fin 4) ≠ 0), slabGather_offCoord3, Nat.zero_add]

/-- The same with the slab named: if the start index `idx[p, o, 0]`, read signed and clamped into `[0, N − 1]`, is `r`,
    the gather at `(p, o, c, b, j)` is the operand at `(r, c, b, j)`. -/
theorem slabGather_apply_of
    (wf : GatherDims.WF ⟨4, ![N, C1, C2, C3]⟩ ⟨3, ![A, B, 1]⟩ ⟨5, ![A, B, C1, C2, C3]⟩ [2, 3, 4] [0] [] [0] [] 2
      ![1, C1, C2, C3])
    (x : (⟨4, ![N, C1, C2, C3]⟩ : Shape).Idx → α) (idx : IVec ⟨3, ![A, B, 1]⟩ w)
    (p : Fin A) (o : Fin B) (c : Fin C1) (b : Fin C2) (j : Fin C3) (r : Fin N)
    (hr : min (idx (ix3 p o 0)).toInt.toNat (N - 1) = r.val) :
    Host.gather (slabGatherDims N C1 C2 C3 A B wf) x idx (ix5 p o c b j) = x (ix4 r c b j) := by
  rw [slabGather_apply r.pos wf]
  exact congrArg (fun r' : Fin N => x (ix4 r' c b j)) (Fin.ext hr)

end SlabGather

end Idealize.ShloMosaic.GatherScatter

end
-- ==== Proof.RefValue.lean ====
/-
  The reference's result is the resized image: its two gathers read the rows and the columns the index tables name,
  and its two sums over the taps are `resized`'s.
-/
import proofs.«414116_j1726576856659_2_alg».proof.Proof.Spec
import proofs.«414116_j1726576856659_2_alg».proof.Proof.LibGatherScatter
import proofs.«414116_j1726576856659_2_alg».proof.Proof.LibSlabGather
import proofs.«414116_j1726576856659_2_alg».proof.Proof.Gen.ReferenceIdeal.Read
import Idealize.ShloMosaic.Lib.StableHlo.Predicate

noncomputable section

open scoped BigOperators

namespace Cert.Resize

open Idealize.ShloMosaic Idealize.ShloMosaic.ValueIdx Idealize.ShloMosaic.GatherScatter

/-! ## The reference's stages read at an index -/

section Stages

open Cert.ReferenceIdeal Cert.ReferenceIdeal.Gen Cert.ReferenceIdeal.Read Idealize.ShloMosaic.StableHlo
  Idealize.ShloMosaic.StableHlo.Predicate

/-- The printed dimension numbers of the first gather are the slab gather's at the literal sizes. -/
theorem gather7_eq : gather_S1024x3x16x1024_S8x512x1_S8x512x3x16x1024_234_0_n_n_0_2_13161024
    = slabGatherDims 1024 3 16 1024 8 512 gather_S1024x3x16x1024_S8x512x1_S8x512x3x16x1024_234_0_n_n_0_2_13161024_wf := rfl

/-- The printed dimension numbers of the second gather are the slab gather's at the literal sizes. -/
theorem gather19_eq : gather_S1024x3x512x16_S8x512x1_S8x512x3x512x16_234_0_n_n_0_2_1351216
    = slabGatherDims 1024 3 512 16 8 512 gather_S1024x3x512x16_S8x512x1_S8x512x3x512x16_234_0_n_n_0_2_1351216_wf := rfl

/-- A word below 1024 is not negative, so the wrap-around of negative indices leaves it. -/
theorem wrap_word (a : BitVec 32) (ha : a.toNat < 1024) :
    Scalar.select (IntOp.cmpi .slt a 0#32) (IntOp.addi a 1024#32) a = a := by
  have h : ¬ IntOp.cmpi .slt a 0#32 = 1#1 := by
    rw [slt_iff_toNat (by omega) (by decide)]
    exact Nat.not_lt_zero _
  rw [eq_zero_of_ne_one h, select_zero]

/-- The first gather's start-index word is the row table's entry. -/
theorem v6_at (fov : IVec SFov 32) (hf : ∀ i, (fov i).toNat < 1024) (p : Fin 8) (o : Fin 512) :
    val_main_v6 (F := Ideal) fov (ix3 p o 0) = fov (ix2 p o) := by
  rw [val_main_v6_apply, val_main_v5_apply, val_main_v2_apply, val_main_v4_apply, val_main_v1_apply,
    val_main_v3_apply, val_main_c_apply, val_main_c_0_apply]
  have hi : idx_main_v6 (ix3 p o 0) = ix2 p o := by
    funext a; refine Fin.ext ?_
    match a with
    | ⟨0, _⟩ => rfl
    | ⟨1, _⟩ => rfl
  rw [hi]
  exact wrap_word _ (hf _)

/-- The second gather's start-index word is the column table's entry. -/
theorem v18_at (fov : IVec SFov 32) (hf : ∀ i, (fov i).toNat < 1024) (p : Fin 8) (o : Fin 512) :
    val_main_v18 (F := Ideal) fov (ix3 p o 0) = fov (ix2 p o) := by
  rw [val_main_v18_apply, val_main_v17_apply, val_main_v14_apply, val_main_v16_apply, val_main_v13_apply,
    val_main_v15_apply, val_main_c_1_apply, val_main_c_2_apply]
  have hi : idx_main_v18 (ix3 p o 0) = ix2 p o := by
    funext a; refine Fin.ext ?_
    match a with
    | ⟨0, _⟩ => rfl
    | ⟨1, _⟩ => rfl
  rw [hi]
  exact wrap_word _ (hf _)

/-- A word below 1024, read signed and clamped into the 1024 rows, is the row `row` names. -/
theorem clamp_row (fov : IVec SFov 32) (hf : ∀ i, (fov i).toNat < 1024) (p : Fin 8) (o : Fin 512) :
    min (fov (ix2 p o)).toInt.toNat (1024 - 1) = (row fov p o).val := by
  have hlt := hf (ix2 p o)
  show min (fov (ix2 p o)).toInt.toNat (1024 - 1) = (fov (ix2 p o)).toNat % 1024
  rw [toInt_eq_toNat_of_lt (by omega), Int.toNat_natCast, Nat.mod_eq_of_lt hlt]
  omega

end Stages

section Chain

open Cert.ReferenceIdeal Cert.ReferenceIdeal.Gen Cert.ReferenceIdeal.Read Idealize.ShloMosaic.StableHlo

/-- The first gather at `(q, o1, ch, b, j)`: the image at batch `b`, channel `ch`, the row tap `q` of output row `o1`
    names, column `j`. -/
theorem v7_at (x : SIn.Idx → EReal) (fov0 : IVec SFov 32) (hf0 : ∀ i, (fov0 i).toNat < 1024)
    (q : Fin 8) (o1 : Fin 512) (ch : Fin 3) (b : Fin 16) (j : Fin 1024) :
    val_main_v7 (F := Ideal) x fov0 (ix5 q o1 ch b j) = x (ix4 b ch (row fov0 q o1) j) := by
  unfold val_main_v7
  rw [gather7_eq, slabGather_apply_of _ _ _ q o1 ch b j (row fov0 q o1) (by rw [v6_at fov0 hf0]; exact clamp_row fov0 hf0 q o1),
    val_main_v0_apply]
  refine congrArg x ?_
  funext a; refine Fin.ext ?_
  match a with
  | ⟨0, _⟩ => rfl
  | ⟨1, _⟩ => rfl
  | ⟨2, _⟩ => rfl
  | ⟨3, _⟩ => rfl

/-- The first sum over the taps at `(o1, ch, b, j)`: the eight weighted row taps of output row `o1`. -/
theorem v10_at (x : SIn.Idx → EReal) (w0 : SW.Idx → EReal) (fov0 : IVec SFov 32) (hf0 : ∀ i, (fov0 i).toNat < 1024)
    (o1 : Fin 512) (ch : Fin 3) (b : Fin 16) (j : Fin 1024) :
    val_main_v10 (F := Ideal) x w0 fov0 (ix4 o1 ch b j)
      = ∑ q : Fin 8, x (ix4 b ch (row fov0 q o1) j) * w0 (ix5 q o1 0 0 0) := by
  rw [val_main_v10_apply, val_main_cst_apply]
  show Ideal.ofBits .f32 0x00000000#32 + _ = _
  rw [Ideal.ofBits_zero_f32, zero_add]
  refine Finset.sum_congr rfl fun q _ => ?_
  have hi : idx_main_v10 (ix4 o1 ch b j) q = ix5 q o1 ch b j := by
    funext a; refine Fin.ext ?_
    match a with
    | ⟨0, _⟩ => rfl
    | ⟨1, _⟩ => rfl
    | ⟨2, _⟩ => rfl
    | ⟨3, _⟩ => rfl
    | ⟨4, _⟩ => rfl
  rw [hi, val_main_v9_apply, val_main_v8_apply, v7_at x fov0 hf0]
  show x _ * w0 _ = _
  refine congrArg (x _ * w0 ·) ?_
  funext a; refine Fin.ext ?_
  match a with
  | ⟨0, _⟩ => rfl
  | ⟨1, _⟩ => rfl
  | ⟨2, _⟩ => rfl
  | ⟨3, _⟩ => rfl
  | ⟨4, _⟩ => rfl

/-- The row-resized image, laid out for the second gather, at `(j, ch, o1, b)`. -/
theorem v12_at (x : SIn.Idx → EReal) (w0 : SW.Idx → EReal) (fov0 : IVec SFov 32) (hf0 : ∀ i, (fov0 i).toNat < 1024)
    (j : Fin 1024) (ch : Fin 3) (o1 : Fin 512) (b : Fin 16) :
    val_main_v12 (F := Ideal) x w0 fov0 (ix4 j ch o1 b)
      = ∑ q : Fin 8, x (ix4 b ch (row fov0 q o1) j) * w0 (ix5 q o1 0 0 0) := by
  rw [val_main_v12_apply, val_main_v11_apply, ← v10_at x w0 fov0 hf0 o1 ch b j]
  refine congrArg (val_main_v10 (F := Ideal) x w0 fov0) ?_
  funext a; refine Fin.ext ?_
  match a with
  | ⟨0, _⟩ => rfl
  | ⟨1, _⟩ => rfl
  | ⟨2, _⟩ => rfl
  | ⟨3, _⟩ => rfl

/-- The second gather at `(p, o2, ch, o1, b)`: the row-resized image at the column tap `p` of output column `o2` names. -/
theorem v19_at (x : SIn.Idx → EReal) (w0 : SW.Idx → EReal) (fov0 fov1 : IVec SFov 32)
    (hf0 : ∀ i, (fov0 i).toNat < 1024) (hf1 : ∀ i, (fov1 i).toNat < 1024)
    (p : Fin 8) (o2 : Fin 512) (ch : Fin 3) (o1 : Fin 512) (b : Fin 16) :
    val_main_v19 (F := Ideal) x w0 fov0 fov1 (ix5 p o2 ch o1 b)
      = ∑ q : Fin 8, x (ix4 b ch (row fov0 q o1) (row fov1 p o2)) * w0 (ix5 q o1 0 0 0) := by
  unfold val_main_v19
  rw [gather19_eq, slabGather_apply_of _ _ _ p o2 ch o1 b (row fov1 p o2) (by rw [v18_at fov1 hf1]; exact clamp_row fov1 hf1 p o2),
    v12_at x w0 fov0 hf0]

/-- THE REFERENCE AT `(b, ch, o1, o2)` is the resized image there. -/
theorem ref_at (x : SIn.Idx → EReal) (w0 w1 : SW.Idx → EReal) (fov0 fov1 : IVec SFov 32)
    (hf0 : ∀ i, (fov0 i).toNat < 1024) (hf1 : ∀ i, (fov1 i).toNat < 1024)
    (b : Fin 16) (ch : Fin 3) (o1 o2 : Fin 512) :
    val_main_v23 (F := Ideal) x w0 w1 fov0 fov1 (ix4 b ch o1 o2) = resized x w0 w1 fov0 fov1 b ch o1 o2 := by
  rw [val_main_v23_apply, val_main_v22_apply, val_main_cst_3_apply]
  show Ideal.ofBits .f32 0x00000000#32 + _ = _
  rw [Ideal.ofBits_zero_f32, zero_add]
  unfold resized
  refine Finset.sum_congr rfl fun p _ => ?_
  have hi : idx_main_v22 (idx_main_v23 (ix4 b ch o1 o2)) p = ix5 p o2 ch o1 b := by
    funext a; refine Fin.ext ?_
    match a with
    | ⟨0, _⟩ => rfl
    | ⟨1, _⟩ => rfl
    | ⟨2, _⟩ => rfl
    | ⟨3, _⟩ => rfl
    | ⟨4, _⟩ => rfl
  rw [hi, val_main_v21_apply, val_main_v20_apply, v19_at x w0 fov0 fov1 hf0 hf1]
  show (∑ q : Fin 8, _) * w1 _ = _
  refine congrArg ((∑ q : Fin 8, x (ix4 b ch (row fov0 q o1) (row fov1 p o2)) * w0 (ix5 q o1 0 0 0)) * w1 ·) ?_
  funext a; refine Fin.ext ?_
  match a with
  | ⟨0, _⟩ => rfl
  | ⟨1, _⟩ => rfl
  | ⟨2, _⟩ => rfl
  | ⟨3, _⟩ => rfl
  | ⟨4, _⟩ => rfl

end Chain

/-- THE REFERENCE IS `G`, for index words in range. -/
theorem ref_eq (x : SIn.Idx → EReal) (w0 w1 : SW.Idx → EReal) (fov0 fov1 : IVec SFov 32)
    (hf0 : ∀ i, (fov0 i).toNat < 1024) (hf1 : ∀ i, (fov1 i).toNat < 1024) :
    Cert.ReferenceIdeal.Read.val_main_v23 (F := Ideal) x w0 w1 fov0 fov1 = G x w0 w1 fov0 fov1 := by
  funext i
  exact (congrArg (Cert.ReferenceIdeal.Read.val_main_v23 (F := Ideal) x w0 w1 fov0 fov1) (eq_ix4 i)).trans
    (ref_at x w0 w1 fov0 fov1 hf0 hf1 (i 0) (i 1) (i 2) (i 3))

end Cert.Resize

end
-- ==== Proof.lean ====
/-
  The certificate's claims for the image resize: a 1024 × 1024 plane is resized to 512 × 512 by two separable
  eight-tap filters whose taps are named by integer index tables.

  The kernel program spreads each weight table into a dense 1024 × 512 matrix and computes the double matrix product
  `(Wr · x) · Wc` plane by plane, each product as three partial products of a high and a low part of its operands
  (the low part: the operand minus itself rounded to a shorter format). The reference gathers the rows and columns the
  index tables name and sums the eight weighted taps on each axis. Over the extended reals a change of format is the
  identity, so on finite inputs every low part is zero, and for index words that are row numbers of the image
  (`0 ≤ fov < 1024`: outside that range one program clamps an index where the other wraps a negative one around) the
  dense product is the double tap sum (Proof/Spec.lean states both; Proof/Algebra.lean joins them).

  The three frames are the generated ones (the reference's is its run with the result dropped); `preserves` is the
  ideal pass's four ledger entries, each the identity of a narrowing followed by a widening; `algebraic` reads the
  kernel program's result off its frame run (Proof/KernelValue.lean, over Proof/KernelBody.lean for the body and
  Proof/KernelHost.lean, Proof/DenseTerm.lean for the host lines before the region) and the reference's off its run
  (Proof/RefValue.lean), both as the one function `Cert.Resize.G` of the arguments, under what the precondition says
  of them (Proof/Pre.lean).
-/
import proofs.«414116_j1726576856659_2_alg».proof.Defs
import proofs.«414116_j1726576856659_2_alg».proof.Proof.Gen.Kernel
import proofs.«414116_j1726576856659_2_alg».proof.Proof.Gen.Kernel.Skeleton
import proofs.«414116_j1726576856659_2_alg».proof.Proof.Gen.Kernel.Launch
import proofs.«414116_j1726576856659_2_alg».proof.Proof.Gen.Kernel.Points
import proofs.«414116_j1726576856659_2_alg».proof.Proof.Gen.Kernel.Frame
import proofs.«414116_j1726576856659_2_alg».proof.Proof.Gen.KernelIdeal
import proofs.«414116_j1726576856659_2_alg».proof.Proof.Gen.KernelIdeal.Skeleton
import proofs.«414116_j1726576856659_2_alg».proof.Proof.Gen.KernelIdeal.Launch
import proofs.«414116_j1726576856659_2_alg».proof.Proof.Gen.KernelIdeal.Points
import proofs.«414116_j1726576856659_2_alg».proof.Proof.Gen.KernelIdeal.Frame
import proofs.«414116_j1726576856659_2_alg».proof.Proof.Gen.ReferenceIdeal
import proofs.«414116_j1726576856659_2_alg».proof.Proof.Gen.Pre_finite_inputs
import proofs.«414116_j1726576856659_2_alg».proof.Proof.Gen.ReferenceIdeal.Run
import proofs.«414116_j1726576856659_2_alg».proof.Proof.Gen.ReferenceIdeal.Read
import proofs.«414116_j1726576856659_2_alg».proof.Proof.Spec
import proofs.«414116_j1726576856659_2_alg».proof.Proof.Pre
import proofs.«414116_j1726576856659_2_alg».proof.Proof.KernelValue
import proofs.«414116_j1726576856659_2_alg».proof.Proof.RefValue
import Idealize.ShloMosaic.Adequacy
import Idealize.ShloMosaic.Init

noncomputable section

namespace Cert.Proof

open Idealize.ShloMosaic Idealize.SL.Sem Cert.Resize

/-- The word-level kernel program runs and keeps its arguments: the generated frame. -/
theorem frame_kernel : Cert.frame_Kernel := fun m ρ _ => Cert.Kernel.Gen.frame m ρ

/-- So does the idealized one. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ledger's four entries: a narrowing to the shorter format followed by the widening back is the identity over the
    extended reals, and the rounding through the shorter format at the word level. -/
theorem preserves : Cert.preserves_Kernel_KernelIdeal :=
  ⟨IdealRules.truncf_extf.statement _ _ _, IdealRules.truncf_extf.statement _ _ _,
    IdealRules.truncf_extf.statement _ _ _, IdealRules.truncf_extf.statement _ _ _⟩

/-- Both idealized programs end with the resized image `G` of the arguments. -/
theorem algebraic : Cert.algebraic_KernelIdeal_ReferenceIdeal := by
  intro m ρ m' ρ' hpre hagree
  have hA : ∀ c, Adm (kX m c) (kW0 m c) (kW1 m c) (kF0 m c) (kF1 m c) := fun c => adm_of_pre _ _ _ _ _ (hpre c)
  refine ⟨fun c => G (kX m c) (kW0 m c) (kW1 m c) (kF0 m c) (kF1 m c), ?_, ?_⟩
  · refine (θ_run Cert.KernelIdeal.defs _ _).mono (fun r h c => ⟨?_, ?_, ?_, ?_, ?_, ?_⟩) (Cert.KernelIdeal.Gen.run_main m ρ)
    · exact ((h c).2 Cert.KernelIdeal.main_v51 (Pipeline.mem_restRefs_of Cert.KernelIdeal.main_v51 (by decide) (by decide))).trans
        (kernel_result m c (hA c))
    · exact ((h c).2 Cert.KernelIdeal.main_arg0 (Pipeline.mem_restRefs_of Cert.KernelIdeal.main_arg0 (by decide) (by decide))).trans
        (Cert.KernelIdeal.Gen.W_main_arg0 m (Cert.KernelIdeal.Gen.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
    · exact ((h c).2 Cert.KernelIdeal.main_arg2 (Pipeline.mem_restRefs_of Cert.KernelIdeal.main_arg2 (by decide) (by decide))).trans
        (Cert.KernelIdeal.Gen.W_main_arg2 m (Cert.KernelIdeal.Gen.dats m) c)
    · exact ((h c).2 Cert.KernelIdeal.main_arg3 (Pipeline.mem_restRefs_of Cert.KernelIdeal.main_arg3 (by decide) (by decide))).trans
        (Cert.KernelIdeal.Gen.W_main_arg3 m (Cert.KernelIdeal.Gen.dats m) c)
    · exact ((h c).2 Cert.KernelIdeal.main_arg4 (Pipeline.mem_restRefs_of Cert.KernelIdeal.main_arg4 (by decide) (by decide))).trans
        (Cert.KernelIdeal.Gen.W_main_arg4 m (Cert.KernelIdeal.Gen.dats m) c)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v23_eq, (hagree c).1, (hagree c).2.1, (hagree c).2.2.1, (hagree c).2.2.2.1,
      (hagree c).2.2.2.2]
    exact ref_eq _ _ _ _ _ (hA c).fov0_lt (hA c).fov1_lt

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
